-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part5 {F : FTy → Type} [FloatOps F] (main_v78 : IVec S_ 1) (main_v82 : IVec S600000 1) (main_v84 : IVec S600000 32) (main_v85 : IVec S600000 32) : IVec S_ 1 :=
  let main_v86 : IVec S600000 1 := cmpi .slt main_v84 main_v85
  let main_v87 : IVec S600000 1 := andi main_v82 main_v86
  let main_c_32 : IVec S_ 1 := constantI S_ 1 1#1
  let main_v88 : IVec S_ 1 := (fun x v => Host.reduce IntOp.andi x v reducesTo_S600000_S_d0 h_S_) main_v87 main_c_32
  let main_v89 : IVec S_ 1 := andi main_v78 main_v88
  main_v89

def fn_part4 {F : FTy → Type} [FloatOps F] (main_arg1 : IVec S2x600000 32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : IVec S1x600000 32 := (extractStridedSlice S1x600000 ![0, 0] · slices_S2x600000_S1x600000_0_0) main_arg1
  let main_v80 : IVec S600000 32 := shapeCast S600000 main_v79 shapeCasts_S1x600000_S600000
  let main_c_30 : IVec S_ 32 := constantI S_ 32 0#32
  let main_v81 : IVec S600000 32 := broadcastInDim S600000 ![] bcast_S_S600000 main_c_30
  let main_v82 : IVec S600000 1 := cmpi .sge main_v80 main_v81
  let main_v83 : IVec S1x600000 32 := (extractStridedSlice S1x600000 ![0, 0] · slices_S2x600000_S1x600000_0_0) main_arg1
  let main_v84 : IVec S600000 32 := shapeCast S600000 main_v83 shapeCasts_S1x600000_S600000
  let main_c_31 : IVec S_ 32 := constantI S_ 32 50000#32
  let main_v85 : IVec S600000 32 := broadcastInDim S600000 ![] bcast_S_S600000 main_c_31
  fn_part5 (F := F) main_v78 main_v82 main_v84 main_v85

def fn_part3 {F : FTy → Type} [FloatOps F] (main_arg1 : IVec S2x600000 32) (main_arg12 : FVec F S128 .f32) (main_arg13 : FVec F S128x128 .f32) (main_arg14 : FVec F S128 .f32) (main_arg15 : FVec F S128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x600000 32) (main_arg8 : FVec F S128 .f32) (main_arg9 : FVec F S64x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_v48 main_v49 main_v50

def fn_part1 {F : FTy → Type} [FloatOps F] (main_arg1 : IVec S2x600000 32) (main_arg5 : FVec F S128x128 .f32) (main_arg6 : FVec F S128 .f32) (main_arg7 : FVec F S128x128 .f32) (main_arg8 : FVec F S128 .f32) (main_arg9 : FVec F S64x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x128 .f32) (main_arg1 : IVec S2x600000 32) (main_arg2 : FVec F S600000x64 .f32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S64x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg2
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S6000x128 : Shape := ⟨2, ![6000, 128]⟩
abbrev S6000x64 : Shape := ⟨2, ![6000, 64]⟩
abbrev S5000x128 : Shape := ⟨2, ![5000, 128]⟩

abbrev nBuf : Space → Nat
  | .hbm => 104
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S1, .i32⟩
  | .hbm, ⟨30, _⟩ => ⟨S_, .i32⟩
  | .hbm, ⟨31, _⟩ => ⟨S600000x1, .i32⟩
  | .hbm, ⟨32, _⟩ => ⟨S600000x1, .i1⟩
  | .hbm, ⟨33, _⟩ => ⟨S1x1, .i32⟩
  | .hbm, ⟨34, _⟩ => ⟨S600000x1, .i32⟩
  | .hbm, ⟨35, _⟩ => ⟨S600000x1, .i1⟩
  | .hbm, ⟨36, _⟩ => ⟨S600000x1, .i1⟩
  | .hbm, ⟨37, _⟩ => ⟨S_, .i1⟩
  | .hbm, ⟨38, _⟩ => ⟨S600000, .i1⟩
  | .hbm, ⟨39, _⟩ => ⟨S600000x128, .f32⟩
  | .hbm, ⟨40, _⟩ => ⟨S600000x128, .i1⟩
  | .hbm, ⟨41, _⟩ => ⟨S_, .f32⟩
  | .hbm, ⟨42, _⟩ => ⟨S600000x128, .f32⟩
  | .hbm, ⟨43, _⟩ => ⟨S600000x128, .f32⟩
  | .hbm, ⟨44, _⟩ => ⟨S1x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S1x128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S1, .i32⟩
  | .hbm, ⟨62, _⟩ => ⟨S_, .i32⟩
  | .hbm, ⟨63, _⟩ => ⟨S600000x1, .i32⟩
  | .hbm, ⟨64, _⟩ => ⟨S600000x1, .i1⟩
  | .hbm, ⟨65, _⟩ => ⟨S1x1, .i32⟩
  | .hbm, ⟨66, _⟩ => ⟨S600000x1, .i32⟩
  | .hbm, ⟨67, _⟩ => ⟨S600000x1, .i1⟩
  | .hbm, ⟨68, _⟩ => ⟨S600000x1, .i1⟩
  | .hbm, ⟨69, _⟩ => ⟨S_, .i1⟩
  | .hbm, ⟨70, _⟩ => ⟨S600000, .i1⟩
  | .hbm, ⟨71, _⟩ => ⟨S600000x128, .f32⟩
  | .hbm, ⟨72, _⟩ => ⟨S600000x128, .i1⟩
  | .hbm, ⟨73, _⟩ => ⟨S_, .f32⟩
  | .hbm, ⟨74, _⟩ => ⟨S600000x128, .f32⟩
  | .hbm, ⟨75, _⟩ => ⟨S600000x128, .f32⟩
  | .hbm, ⟨76, _⟩ => ⟨S1x128, .f32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x64, .f32⟩
  | .local _ .vmem, ⟨3, _⟩ => ⟨S6000x64, .f32⟩
  | .local _ .vmem, ⟨4, _⟩ => ⟨S64x128, .f32⟩
  | .local _ .vmem, ⟨5, _⟩ => ⟨S1x128, .f32⟩
  | .local _ .vmem, ⟨6, _⟩ => ⟨S6000x128, .f32⟩
  | .local _ .vmem, ⟨7, _⟩ => ⟨S6000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S6000x128, .f32⟩
  | .local _ .vmem, ⟨19, _⟩ => ⟨S6000x128, .f32⟩
  | .local _ .vmem, ⟨20, _⟩ => ⟨S6000x64, .f32⟩
  | .local _ .vmem, ⟨21, _⟩ => ⟨S6000x64, .f32⟩
  | .local _ .vmem, ⟨22, _⟩ => ⟨S64x128, .f32⟩
  | .local _ .vmem, ⟨23, _⟩ => ⟨S1x128, .f32⟩
  | .local _ .vmem, ⟨24, _⟩ => ⟨S6000x128, .f32⟩
  | .local _ .vmem, ⟨25, _⟩ => ⟨S6000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_0 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_cst_1 : Ref sig .tc := ⟨.hbm, 85, rfl⟩
abbrev main_v22 : Ref sig .tc := ⟨.hbm, 86, rfl⟩
abbrev main_cst_2 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_cst_3 : Ref sig .tc := ⟨.hbm, 94, rfl⟩
abbrev main_v29 : Ref sig .tc := ⟨.hbm, 95, rfl⟩
abbrev main_cst_4 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S128_S1x128 : S128.ShapeCasts S1x128
  inb_S6000x64_S6000x64_0_0 : ∀ a, (![0, 0] : Fin 2 → Nat) a + S6000x64.size a ≤ S6000x64.size a
  h_S6000x64 : 0 < S6000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S6000x64_S64x128_S6000x128_1_0_0_1_n_n_wf : DotDims.WF S6000x64 S64x128 S6000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S600000x64.size a
  hwx0_1 : ∀ i : grid0.Coords, EltTy.bits .f32 = 32 ∨ (Rect.block (s := S600000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x128.size a ≤ S600000x128.size a
  hwx0_4 : ∀ i : grid0.Coords, EltTy.bits .f32 = 32 ∨ (Rect.block (s := S600000x128) S6000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S600000x64.size a
  hwx2_1 : ∀ i : grid2.Coords, EltTy.bits .f32 = 32 ∨ (Rect.block (s := S600000x64) S6000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x128.size a ≤ S600000x128.size a
  hwx2_4 : ∀ i : grid2.Coords, EltTy.bits .f32 = 32 ∨ (Rect.block (s := S600000x128) S6000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x64_S64x128_S6000x128_1_0_0_1_n_n : DotDims S6000x64 S64x128 S6000x128 where
  lhsContracting := [1]
  rhsContracting := [0]
  lhsNonContracting := [0]
  rhsNonContracting := [1]
  lhsBatch := []
  rhsBatch := []
  wf := dot_S6000x64_S64x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S6000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S6000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v21) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S1x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S600000x128, .f32⟩
  | .hbm, ⟨67, _⟩ => ⟨S600000x128, .f32⟩
  | .hbm, ⟨68, _⟩ => ⟨S1x128, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_cst : Ref sig .tc := ⟨.hbm, 35, rfl⟩
abbrev main_call0_v0 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_cst : Ref sig .tc := ⟨.hbm, 47, rfl⟩
abbrev main_call1_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call2_cst : Ref sig .tc := ⟨.hbm, 54, rfl⟩
abbrev main_call2_v0 : Ref sig .tc := ⟨.hbm, 55, rfl⟩
abbrev main_v30 : Ref sig .tc := ⟨.hbm, 56, rfl⟩
abbrev main_c_1 : Ref sig .tc := ⟨.hbm, 57, rfl⟩
abbrev main_v31 : Ref sig .tc := ⟨.hbm, 58, rfl⟩
abbrev main_v32 : Ref sig .tc := ⟨.hbm, 59, rfl⟩
abbrev main_c_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call3_cst : Ref sig .tc := ⟨.hbm, 71, rfl⟩
abbrev main_call3_v0 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call4_cst : Ref sig .tc := ⟨.hbm, 83, rfl⟩
abbrev main_call4_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_4 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_6 : Ref sig .tc := ⟨.hbm, 99, rfl⟩
abbrev main_v64 : Ref sig .tc := ⟨.hbm, 100, rfl⟩
abbrev main_cst_7 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_8 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S600000x1_S600000x128_1_0_n_n_0_1_1128_wf : GatherDims.WF S50000x128 S600000x1 S600000x128 [1] [0] [] [0] [] 1 ![1, 128]
  dot_S600000x64_S64x128_S600000x128_1_0_0_1_n_n_wf : DotDims.WF S600000x64 S64x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  What both programs compute, entry by entry, on the extended reals.

  One graph-convolution layer takes node features `x` (one row per node), for every edge `e` the row of its
  source node `xs e` and its attribute row `ea e`, and forms the edge message
  `relu (xs e + ea e · We + be)`; the messages are summed into their target nodes (`aggr`), and the node layer is
  `relu ((x + aggr) · Wa + ba) · Wb + bb`, with one more `relu` after the first layer. The encoder's output is
  normalised column by column with the column's mean and variance over all nodes:
  `gamma · (h - mean) · rsqrt (var + eps) + beta`.

  Every function is given first at a row `p` and a column `q` (`…At`), then as the matrix of those entries. A row of
  the result depends on the same row of the row-indexed operands only, which is why computing it block of rows by
  block of rows gives the same matrix.
-/
import Idealize.ShloMosaic.PureOps.Ideal
import Idealize.ShloMosaic.Lib.ValueIdx

noncomputable section

namespace Cert.Gine

open Idealize.ShloMosaic Idealize.ShloMosaic.ValueIdx
open scoped BigOperators

/-- A matrix of `R` rows and `C` columns of extended reals, indexed as the programs index it. -/
abbrev Mat (R C : Nat) : Type := (⟨2, ![R, C]⟩ : Shape).Idx → EReal

/-- A vector of 128 entries read as a row: entry `q`. -/
abbrev rowOf (v : (⟨1, ![128]⟩ : Shape).Idx → EReal) : Fin 128 → EReal := fun q => v (ix1 q)

/-- A `1 × 128` matrix read as its one row. -/
abbrev rowOf2 (v : Mat 1 128) : Fin 128 → EReal := fun q => v (ix2 0 q)

/-- The matrix whose entry `(p, q)` is `f p q`. -/
abbrev ofEntries {R C : Nat} (f : Fin R → Fin C → EReal) : Mat R C := fun i => f (i 0) (i 1)

theorem ofEntries_apply {R C : Nat} (f : Fin R → Fin C → EReal) (p : Fin R) (q : Fin C) :
    ofEntries f (ix2 p q) = f p q := rfl

/-- The edge message at edge `p`, column `q`: `max (xs p q + ∑ k, ea p k · We k q + be q) 0`. -/
def edgeMsgAt {E : Nat} (xs : Mat E 128) (ea : Mat E 64) (We : Mat 64 128) (be : Fin 128 → EReal)
    (p : Fin E) (q : Fin 128) : EReal :=
  max (xs (ix2 p q) + (∑ k : Fin 64, ea (ix2 p k) * We (ix2 k q)) + be q) 0

/-- The edge messages as a matrix. -/
def edgeMsg {E : Nat} (xs : Mat E 128) (ea : Mat E 64) (We : Mat 64 128) (be : Fin 128 → EReal) : Mat E 128 :=
  ofEntries (edgeMsgAt xs ea We be)

/-- The node layer's hidden activation at node `p`, column `q`: `max (∑ k, (x p k + aggr p k) · Wa k q + ba q) 0`. -/
def nodeHiddenAt {N : Nat} (x aggr : Mat N 128) (Wa : Mat 128 128) (ba : Fin 128 → EReal) (p : Fin N) (q : Fin 128) : EReal :=
  max ((∑ k : Fin 128, (x (ix2 p k) + aggr (ix2 p k)) * Wa (ix2 k q)) + ba q) 0

/-- The node layer at node `p`, column `q`: `∑ k, hidden p k · Wb k q + bb q`. -/
def nodeOutAt {N : Nat} (x aggr : Mat N 128) (Wa : Mat 128 128) (ba : Fin 128 → EReal) (Wb : Mat 128 128)
    (bb : Fin 128 → EReal) (p : Fin N) (q : Fin 128) : EReal :=
  (∑ k : Fin 128, nodeHiddenAt x aggr Wa ba p k * Wb (ix2 k q)) + bb q

/-- The node layer as a matrix. -/
def nodeOut {N : Nat} (x aggr : Mat N 128) (Wa : Mat 128 128) (ba : Fin 128 → EReal) (Wb : Mat 128 128)
    (bb : Fin 128 → EReal) : Mat N 128 :=
  ofEntries (nodeOutAt x aggr Wa ba Wb bb)

/-- The node layer followed by `relu`, as a matrix. -/
def nodeOutRelu {N : Nat} (x aggr : Mat N 128) (Wa : Mat 128 128) (ba : Fin 128 → EReal) (Wb : Mat 128 128)
    (bb : Fin 128 → EReal) : Mat N 128 :=
  ofEntries (fun p q => max (nodeOutAt x aggr Wa ba Wb bb p q) 0)

/-- The normalisation with given column statistics at node `p`, column `q`:
    `gamma q · (h p q - mean q) · rsqrt (var q + eps) + beta q`, `eps` the single-precision number nearest `1e-5`. -/
def bnApplyAt {N : Nat} (h : Mat N 128) (mean var gamma beta : Fin 128 → EReal) (p : Fin N) (q : Fin 128) : EReal :=
  gamma q * (h (ix2 p q) - mean q) * Ideal.rsqrt (var q + Ideal.ofBits .f32 0x3727C5AC#32) + beta q

/-- The normalisation as a matrix. -/
def bnApply {N : Nat} (h : Mat N 128) (mean var gamma beta : Fin 128 → EReal) : Mat N 128 :=
  ofEntries (bnApplyAt h mean var gamma beta)

end Cert.Gine

end
-- ==== Proof.EdgeBody.lean ====
/-
  The edge-message kernel's body, as mathematics: the one value it stores is, entry by entry, the edge message
  `max (xs + ea · We + be) 0` of the blocks it loaded. The product with the weight block is a sum over the 64
  attribute columns; the bias block, one row, is added to every row; the changes of float format are the identity on
  the extended reals.
-/
import proofs.«416417_j3642132267186_1_alg».proof.Proof.Gen.KernelIdeal.Skeleton
import proofs.«416417_j3642132267186_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeBody

open Cert.KernelIdeal Cert.KernelIdeal.Gen Cert.Gine Idealize.ShloMosaic Idealize.ShloMosaic.ValueIdx
open scoped BigOperators

/-! ## The block product read at an entry -/

theorem lhs_0 (i : S6000x128.Idx) (q : dot_S6000x64_S64x128_S6000x128_1_0_0_1_n_n.contr.Idx) :
    (dot_S6000x64_S64x128_S6000x128_1_0_0_1_n_n.lhsIdx i q 0).val = (i 0).val := by
  unfold DotDims.lhsIdx
  rw [dif_neg (show ¬(0 : Fin S6000x64.rank) ∈ dot_S6000x64_S64x128_S6000x128_1_0_0_1_n_n.lhsBatch by decide), dif_pos (show (0 : Fin S6000x64.rank) ∈ dot_S6000x64_S64x128_S6000x128_1_0_0_1_n_n.lhsNonContracting by decide)]
  rfl
theorem lhs_1 (i : S6000x128.Idx) (q : dot_S6000x64_S64x128_S6000x128_1_0_0_1_n_n.contr.Idx) :
    (dot_S6000x64_S64x128_S6000x128_1_0_0_1_n_n.lhsIdx i q 1).val = (q ⟨0, by decide⟩).val :=
  dot_S6000x64_S64x128_S6000x128_1_0_0_1_n_n.lhsIdx_val_of_single rfl i q
theorem rhs_0 (i : S6000x128.Idx) (q : dot_S6000x64_S64x128_S6000x128_1_0_0_1_n_n.contr.Idx) :
    (dot_S6000x64_S64x128_S6000x128_1_0_0_1_n_n.rhsIdx i q 0).val = (q ⟨0, by decide⟩).val :=
  dot_S6000x64_S64x128_S6000x128_1_0_0_1_n_n.rhsIdx_val_of_single rfl i q
theorem rhs_1 (i : S6000x128.Idx) (q : dot_S6000x64_S64x128_S6000x128_1_0_0_1_n_n.contr.Idx) :
    (dot_S6000x64_S64x128_S6000x128_1_0_0_1_n_n.rhsIdx i q 1).val = (i 1).val := by
  unfold DotDims.rhsIdx
  rw [dif_neg (show ¬(1 : Fin S64x128.rank) ∈ dot_S6000x64_S64x128_S6000x128_1_0_0_1_n_n.rhsBatch by decide), dif_pos (show (1 : Fin S64x128.rank) ∈ dot_S6000x64_S64x128_S6000x128_1_0_0_1_n_n.rhsNonContracting by decide)]
  rfl

/-- Entry `(p, q)` of the block product into a zero accumulator is `∑ k, l p k · r k q`. -/
theorem matmul_apply (l : FVec Ideal S6000x64 .bf16) (r : FVec Ideal S64x128 .bf16) (p : Fin 6000) (q : Fin 128) :
    matmul dot_S6000x64_S64x128_S6000x128_1_0_0_1_n_n none l r (constant (F := Ideal) S6000x128 .f32 0x00000000#32) (ix2 p q)
      = ∑ k : Fin 64, l (ix2 p k) * r (ix2 k q) := by
  refine (Ideal.matmul_constant_zero_apply dot_S6000x64_S64x128_S6000x128_1_0_0_1_n_n none l r (ix2 p q)).trans ?_
  rw [← Equiv.sum_comp (ValueIdx.contrEquiv1 dot_S6000x64_S64x128_S6000x128_1_0_0_1_n_n 64 rfl rfl).symm]
  refine Finset.sum_congr rfl fun k _ => ?_
  have hk := ValueIdx.contrEquiv1_symm_val dot_S6000x64_S64x128_S6000x128_1_0_0_1_n_n 64 rfl rfl k
  have el : dot_S6000x64_S64x128_S6000x128_1_0_0_1_n_n.lhsIdx (ix2 p q) ((ValueIdx.contrEquiv1 dot_S6000x64_S64x128_S6000x128_1_0_0_1_n_n 64 rfl rfl).symm k) = ix2 p k := funext fun a => Fin.ext (by
    match a with
    | ⟨0, _⟩ => exact lhs_0 _ _
    | ⟨1, _⟩ => exact (lhs_1 _ _).trans hk)
  have er : dot_S6000x64_S64x128_S6000x128_1_0_0_1_n_n.rhsIdx (ix2 p q) ((ValueIdx.contrEquiv1 dot_S6000x64_S64x128_S6000x128_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The one bias row, broadcast over the rows, read at an entry. -/
theorem bias_apply (be : Vec Ideal S1x128 .f32) (p : Fin 6000) (q : Fin 128) :
    broadcastTo S6000x128 be broadcasts_S1x128_S6000x128 (ix2 p q) = be (ix2 0 q) :=
  broadcastTo_apply be broadcasts_S1x128_S6000x128 (ix2 p q) (ix2 0 q) (fun a => by
    match a with
    | ⟨0, _⟩ => rfl
    | ⟨1, _⟩ => rfl)

/-! ## The stored value -/

/-- The value region 0's body stores is the edge message of the blocks it loaded. -/
theorem pay0 (ea : Vec Ideal S6000x64 .f32) (We : Vec Ideal S64x128 .f32) (xs : Vec Ideal S6000x128 .f32)
    (be : Vec Ideal S1x128 .f32) :
    k0_pay1 (F := Ideal) ea We xs be = edgeMsg (E := 6000) xs ea We (rowOf2 be) := by
  funext j
  obtain ⟨p, q, rfl⟩ : ∃ (p : Fin 6000) (q : Fin 128), j = ix2 p q := ⟨j 0, j 1, eq_ix2 j⟩
  show k0_pay1 (F := Ideal) ea We xs be (ix2 p q) = edgeMsgAt (E := 6000) xs ea We (rowOf2 be) p q
  unfold k0_pay1 edgeMsgAt
  rw [maximumf_apply, addf_apply, addf_apply, matmul_apply, shapeCast_self, shapeCast_self, bias_apply]
  simp only [truncf_apply, broadcast_apply, Scalar.ofBits, Ideal.ofBits_def, Ideal.ofBits_zero_f32]

/-- The value region 2's body stores is the edge message of the blocks it loaded (the same body, launched again). -/
theorem pay2 (ea : Vec Ideal S6000x64 .f32) (We : Vec Ideal S64x128 .f32) (xs : Vec Ideal S6000x128 .f32)
    (be : Vec Ideal S1x128 .f32) :
    k2_pay1 (F := Ideal) ea We xs be = edgeMsg (E := 6000) xs ea We (rowOf2 be) := by
  funext j
  obtain ⟨p, q, rfl⟩ : ∃ (p : Fin 6000) (q : Fin 128), j = ix2 p q := ⟨j 0, j 1, eq_ix2 j⟩
  show k2_pay1 (F := Ideal) ea We xs be (ix2 p q) = edgeMsgAt (E := 6000) xs ea We (rowOf2 be) p q
  unfold k2_pay1 edgeMsgAt
  rw [maximumf_apply, addf_apply, addf_apply, matmul_apply, shapeCast_self, shapeCast_self, bias_apply]
  simp only [truncf_apply, broadcast_apply, Scalar.ofBits, Ideal.ofBits_def, Ideal.ofBits_zero_f32]

end Cert.KernelIdeal.EdgeBody

end
-- ==== Proof.SpecRows.lean ====
/-
  Rows are independent. Each function reads entry `(p, q)` of its result from row `p` of its row-indexed operands
  only, so if a small matrix's row `p` is the large matrix's row `p'` (a block of consecutive rows read through its
  offset, say) the small instance's entry `(p, q)` is the large one's entry `(p', q)`.
-/
import proofs.«416417_j3642132267186_1_alg».proof.Proof.Spec

noncomputable section

namespace Cert.Gine

open Idealize.ShloMosaic Idealize.ShloMosaic.ValueIdx
open scoped BigOperators

theorem edgeMsgAt_row {B E : Nat} (xb : Mat B 128) (eb : Mat B 64) (Wb : Mat 64 128) (bb : Fin 128 → EReal)
    (xs : Mat E 128) (ea : Mat E 64) (We : Mat 64 128) (be : Fin 128 → EReal)
    (p : Fin B) (p' : Fin E) (q : Fin 128)
    (hx : xb (ix2 p q) = xs (ix2 p' q)) (he : ∀ k : Fin 64, eb (ix2 p k) = ea (ix2 p' k))
    (hW : ∀ k : Fin 64, Wb (ix2 k q) = We (ix2 k q)) (hb : bb q = be q) :
    edgeMsgAt xb eb Wb bb p q = edgeMsgAt xs ea We be p' q := by
  unfold edgeMsgAt
  rw [hx, hb, Finset.sum_congr rfl (fun k _ => by rw [he k, hW k])]

theorem nodeHiddenAt_row {B N : Nat} (xb ab : Mat B 128) (Wa' : Mat 128 128) (ba' : Fin 128 → EReal)
    (x a : Mat N 128) (Wa : Mat 128 128) (ba : Fin 128 → EReal)
    (p : Fin B) (p' : Fin N) (q : Fin 128)
    (hx : ∀ k : Fin 128, xb (ix2 p k) = x (ix2 p' k)) (ha : ∀ k : Fin 128, ab (ix2 p k) = a (ix2 p' k))
    (hW : Wa' = Wa) (hb : ba' = ba) :
    nodeHiddenAt xb ab Wa' ba' p q = nodeHiddenAt x a Wa ba p' q := by
  unfold nodeHiddenAt
  rw [hW, hb, Finset.sum_congr rfl (fun k _ => by rw [hx k, ha k])]

theorem nodeOutAt_row {B N : Nat} (xb ab : Mat B 128) (Wa' : Mat 128 128) (ba' : Fin 128 → EReal) (Wb' : Mat 128 128)
    (bb' : Fin 128 → EReal) (x a : Mat N 128) (Wa : Mat 128 128) (ba : Fin 128 → EReal) (Wb : Mat 128 128)
    (bb : Fin 128 → EReal) (p : Fin B) (p' : Fin N) (q : Fin 128)
    (hx : ∀ k : Fin 128, xb (ix2 p k) = x (ix2 p' k)) (ha : ∀ k : Fin 128, ab (ix2 p k) = a (ix2 p' k))
    (hWa : Wa' = Wa) (hba : ba' = ba) (hWb : Wb' = Wb) (hbb : bb' = bb) :
    nodeOutAt xb ab Wa' ba' Wb' bb' p q = nodeOutAt x a Wa ba Wb bb p' q := by
  unfold nodeOutAt
  rw [hWb, hbb, Finset.sum_congr rfl (fun k _ => by
    rw [nodeHiddenAt_row xb ab Wa' ba' x a Wa ba p p' k hx ha hWa hba])]

theorem bnApplyAt_row {B N : Nat} (hb : Mat B 128) (mean' var' gamma' beta' : Fin 128 → EReal)
    (h : Mat N 128) (mean var gamma beta : Fin 128 → EReal) (p : Fin B) (p' : Fin N) (q : Fin 128)
    (hh : hb (ix2 p q) = h (ix2 p' q)) (hm : mean' = mean) (hv : var' = var) (hg : gamma' = gamma) (hbe : beta' = beta) :
    bnApplyAt hb mean' var' gamma' beta' p q = bnApplyAt h mean var gamma beta p' q := by
  unfold bnApplyAt
  rw [hh, hm, hv, hg, hbe]

end Cert.Gine

end
-- ==== Proof.Region0.lean ====
/-
  An edge-message launch, as mathematics: when the region ends, its output array holds the edge
  message of the arrays the region found, whole. Point `t` of the grid works on rows `6000 t … 6000 t + 5999`: its
  input blocks are those rows of the gathered source rows and of the edge attributes, the whole weight matrix and the
  bias row, and what it writes back is those rows of the result, because a row of the edge message depends on the
  same row of the row-indexed operands only. The hundred blocks tile the 600000 rows.
-/
import proofs.«416417_j3642132267186_1_alg».proof.Proof.Gen.KernelIdeal.Frame
import proofs.«416417_j3642132267186_1_alg».proof.Proof.EdgeBody
import proofs.«416417_j3642132267186_1_alg».proof.Proof.SpecRows

set_option maxRecDepth 16384

noncomputable section

namespace Cert.KernelIdeal.Region0

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as matrices. -/
abbrev xsArr (c : Dev nD) : Mat 600000 128 := V c main_v4
abbrev eaArr (c : Dev nD) : Mat 600000 64 := V c main_arg2
abbrev weArr (c : Dev nD) : Mat 64 128 := V c main_arg3
abbrev beArr (c : Dev nD) : Mat 1 128 := V c main_v5

/-- The block index maps over the grid: the row-indexed windows move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 100 :=
  (by decide +kernel : ∀ t : Fin grid0.N, _)

/-- What point `t` writes back is rows `6000 t …` of the edge message of the arrays. -/
theorem flushed_eq (c : Dev nD) (t : Fin cfg0.N) :
    (dat0 V c).flushed 4 t = ((cfg0.win 4).blk t).view.read (Elt Ideal)
      (edgeMsg (E := 600000) (xsArr V c) (eaArr V c) (weArr V c) (rowOf2 (beArr V c))) := by
  show (cfg0.win 4).cut (grid0.coords t) ((dat0 V c).after 4 t) = _
  rw [after0_4]
  unfold out0_4
  rw [View.canon_unit_zero hz]
  simp only [View.ld_unit_zero (S := S6000x64) hz, View.ld_unit_zero (S := S64x128) hz,
    View.ld_unit_zero (S := S6000x128) hz, View.ld_unit_zero (S := S1x128) hz]
  rw [EdgeBody.pay0 (iblk0 V c 1 t) (iblk0 V c 2 t) (iblk0 V c 0 t) (iblk0 V c 3 t)]
  obtain ⟨e00, e01, e10, e11, e20, e21, e30, e31, e40, e41, ht⟩ := idx_facts t
  funext j
  obtain ⟨p, q, rfl⟩ : ∃ (p : Fin 6000) (q : Fin 128), j = ix2 p q := ⟨j 0, j 1, eq_ix2 j⟩
  have hrow : t.val * 6000 + p.val < 600000 := by have := p.isLt; omega
  have hemb : ((cfg0.win 4).blk t).view.emb (ix2 p q) = ix2 (⟨t.val * 6000 + p.val, hrow⟩ : Fin 600000) q := by
    funext a; apply Fin.ext
    match a with
    | ⟨0, _⟩ => show win0_4.index t (0 : Fin 2) * 6000 + 1 * p.val = t.val * 6000 + p.val; omega
    | ⟨1, _⟩ => show win0_4.index t (1 : Fin 2) * 128 + 1 * q.val = q.val; omega
  show edgeMsg (E := 6000) (iblk0 V c 0 t) (iblk0 V c 1 t) (iblk0 V c 2 t) (rowOf2 (iblk0 V c 3 t)) (ix2 p q)
    = edgeMsg (E := 600000) (xsArr V c) (eaArr V c) (weArr V c) (rowOf2 (beArr V c)) (((cfg0.win 4).blk t).view.emb (ix2 p q))
  rw [hemb]
  show edgeMsgAt (E := 6000) (iblk0 V c 0 t) (iblk0 V c 1 t) (iblk0 V c 2 t) (rowOf2 (iblk0 V c 3 t)) p q
    = edgeMsgAt (E := 600000) (xsArr V c) (eaArr V c) (weArr V c) (rowOf2 (beArr V c)) ⟨t.val * 6000 + p.val, hrow⟩ q
  refine edgeMsgAt_row (iblk0 V c 0 t) (iblk0 V c 1 t) (iblk0 V c 2 t) (rowOf2 (iblk0 V c 3 t))
    (xsArr V c) (eaArr V c) (weArr V c) (rowOf2 (beArr V c)) p ⟨t.val * 6000 + p.val, hrow⟩ q ?_ ?_ ?_ ?_
  · show V c main_v4 (((cfg0.win 0).blk t).view.emb (ix2 p q)) = V c main_v4 (ix2 (⟨t.val * 6000 + p.val, hrow⟩ : Fin 600000) q)
    refine congrArg (V c main_v4) (funext fun a => Fin.ext ?_)
    match a with
    | ⟨0, _⟩ => show win0_0.index t (0 : Fin 2) * 6000 + 1 * p.val = t.val * 6000 + p.val; omega
    | ⟨1, _⟩ => show win0_0.index t (1 : Fin 2) * 128 + 1 * q.val = q.val; omega
  · intro k
    show V c main_arg2 (((cfg0.win 1).blk t).view.emb (ix2 p k)) = V c main_arg2 (ix2 (⟨t.val * 6000 + p.val, hrow⟩ : Fin 600000) k)
    refine congrArg (V c main_arg2) (funext fun a => Fin.ext ?_)
    match a with
    | ⟨0, _⟩ => show win0_1.index t (0 : Fin 2) * 6000 + 1 * p.val = t.val * 6000 + p.val; omega
    | ⟨1, _⟩ => show win0_1.index t (1 : Fin 2) * 64 + 1 * k.val = k.val; omega
  · intro k
    show V c main_arg3 (((cfg0.win 2).blk t).view.emb (ix2 k q)) = V c main_arg3 (ix2 k q)
    refine congrArg (V c main_arg3) (funext fun a => Fin.ext ?_)
    match a with
    | ⟨0, _⟩ => show win0_2.index t (0 : Fin 2) * 64 + 1 * k.val = k.val; omega
    | ⟨1, _⟩ => show win0_2.index t (1 : Fin 2) * 128 + 1 * q.val = q.val; omega
  · show V c main_v5 (((cfg0.win 3).blk t).view.emb (ix2 0 q)) = V c main_v5 (ix2 0 q)
    refine congrArg (V c main_v5) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An index of the output array is in point `t`'s block iff each coordinate is in the block's range on its axis. -/
theorem mem_blk (t : Fin cfg0.N) (i : S600000x128.Idx) :
    i ∈ ((cfg0.win 4).blk t).view.set ↔ ∀ a : Fin 2, win0_4.index t a * S6000x128.size a ≤ (i a).val ∧ (i a).val < win0_4.index t a * S6000x128.size a + S6000x128.size a := by
  show i ∈ ((View.whole main_v6).slice (win0_4.rect t)).set ↔ _
  rw [View.set_slice_whole, Rect.mem_set_unit]
  exact Iff.rfl

/-- Every block of rows is some point's. -/
theorem idx_onto : ∀ q0 : Fin 100, ∃ t : Fin cfg0.N, win0_4.index t = ![q0.val, 0] :=
  (by decide +kernel : ∀ q0 : Fin 100, ∃ t : Fin grid0.N, win0_4.index t = ![q0.val, 0])

/-- The blocks tile the array: row `r` lies in the block of point `r / 6000`. -/
theorem cover (i : S600000x128.Idx) :
    ∃ t : Fin cfg0.N, (cfg0.win 4).flush t = true ∧ i ∈ ((cfg0.win 4).blk t).view.set := by
  have hi0 : (i 0).val < 600000 := (i 0).isLt
  have hi1 : (i 1).val < 128 := (i 1).isLt
  obtain ⟨t, ht⟩ := idx_onto ⟨(i 0).val / 6000, by omega⟩
  have q0 : win0_4.index t (0 : Fin 2) = (i 0).val / 6000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 6000 ≤ (i 0).val ∧ (i 0).val < win0_4.index t (0 : Fin 2) * 6000 + 6000; omega
  | ⟨1, _⟩ => show win0_4.index t (1 : Fin 2) * 128 ≤ (i 1).val ∧ (i 1).val < win0_4.index t (1 : Fin 2) * 128 + 128; omega

/-- THE OUTPUT ARRAY when the region ends: the edge message of the arrays it found. -/
theorem final0 (c : Dev nD) :
    (dat0 V c).arrAt 4 cfg0.N = edgeMsg (E := 600000) (xsArr V c) (eaArr V c) (weArr V c) (rowOf2 (beArr V c)) :=
  (dat0 V c).arrAt_eq_of_cover 4 _ (fun t _ => flushed_eq V c t) (cover)

end Cert.KernelIdeal.Region0

end
-- ==== Proof.NodeBnBody.lean ====
/-
  The node-layer kernels' bodies and the normalisation kernel's body, as mathematics: the one value each stores is,
  entry by entry, the node layer `relu ((x + aggr) · Wa + ba) · Wb + bb` of the blocks it loaded (followed by one more
  `relu` in the first layer's kernel), and `gamma · (h - mean) · rsqrt (var + eps) + beta` for the normalisation.
  A product with a weight block is a sum over its 128 rows; a bias or statistics block, one row, is read at every row;
  the changes of float format are the identity on the extended reals.
-/
import proofs.«416417_j3642132267186_1_alg».proof.Proof.Gen.KernelIdeal.Skeleton
import proofs.«416417_j3642132267186_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeBnBody

open Cert.KernelIdeal Cert.KernelIdeal.Gen Cert.Gine Idealize.ShloMosaic Idealize.ShloMosaic.ValueIdx
open scoped BigOperators

/-! ## The block product read at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of the block product into a zero accumulator is `∑ k, l p k · r k q`. -/
theorem matmul_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- A one-row block, broadcast over the rows, read at an entry. -/
theorem row_apply (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- Entry `(p, q)` of `l · W + b`, the bias row `b` added to every row: `∑ k, l p k · W k q + b q`. -/
theorem affine_apply (l : FVec Ideal S5000x128 .f32) (W : Vec Ideal S128x128 .f32) (b : Vec Ideal S1x128 .f32)
    (p : Fin 5000) (q : Fin 128) :
    addf (matmul dot_S5000x128_S128x128_S5000x128_1_0_0_1_n_n none (truncf .bf16 l bitsLt_bf16_f32) (truncf .bf16 W bitsLt_bf16_f32)
        (constant (F := Ideal) S5000x128 .f32 0x00000000#32))
      (broadcastTo S5000x128 b broadcasts_S1x128_S5000x128) (ix2 p q)
      = (∑ k : Fin 128, l (ix2 p k) * W (ix2 k q)) + b (ix2 0 q) := by
  rw [addf_apply, matmul_apply, row_apply]
  simp only [truncf_apply]

/-- Entry `(p, k)` of the first product's activation `relu ((x + a) · Wa + ba)` is the hidden activation. -/
theorem hidden_apply (x a : Vec Ideal S5000x128 .f32) (Wa : Vec Ideal S128x128 .f32) (ba : Vec Ideal S1x128 .f32)
    (p : Fin 5000) (k : Fin 128) :
    maximumf (addf (matmul dot_S5000x128_S128x128_S5000x128_1_0_0_1_n_n none (truncf .bf16 (addf x a) bitsLt_bf16_f32) (truncf .bf16 Wa bitsLt_bf16_f32)
          (constant (F := Ideal) S5000x128 .f32 0x00000000#32))
        (broadcastTo S5000x128 ba broadcasts_S1x128_S5000x128))
      (broadcast S5000x128 (Scalar.ofBits (F := Ideal) .f32 0x00000000#32)) (ix2 p k)
      = nodeHiddenAt (N := 5000) x a Wa (rowOf2 ba) p k := by
  unfold nodeHiddenAt
  rw [maximumf_apply, affine_apply]
  simp only [addf_apply, broadcast_apply, Scalar.ofBits, Ideal.ofBits_def, Ideal.ofBits_zero_f32]

/-! ## The stored values -/

/-- The value region 1's body stores is the node layer of the blocks it loaded, followed by `relu`. -/
theorem pay1 (x aggr : Vec Ideal S5000x128 .f32) (Wa : Vec Ideal S128x128 .f32) (ba : Vec Ideal S1x128 .f32)
    (Wb : Vec Ideal S128x128 .f32) (bb : Vec Ideal S1x128 .f32) :
    k1_pay1 (F := Ideal) x aggr Wa ba Wb bb = nodeOutRelu (N := 5000) x aggr Wa (rowOf2 ba) Wb (rowOf2 bb) := by
  funext j
  obtain ⟨p, q, rfl⟩ : ∃ (p : Fin 5000) (q : Fin 128), j = ix2 p q := ⟨j 0, j 1, eq_ix2 j⟩
  show k1_pay1 (F := Ideal) x aggr Wa ba Wb bb (ix2 p q)
    = max (nodeOutAt (N := 5000) x aggr Wa (rowOf2 ba) Wb (rowOf2 bb) p q) 0
  unfold k1_pay1 nodeOutAt
  simp only [shapeCast_self]
  rw [maximumf_apply, affine_apply, Finset.sum_congr rfl (fun k _ => by rw [hidden_apply])]
  simp only [broadcast_apply, Scalar.ofBits, Ideal.ofBits_def, Ideal.ofBits_zero_f32]

/-- The value region 3's body stores is the node layer of the blocks it loaded. -/
theorem pay3 (x aggr : Vec Ideal S5000x128 .f32) (Wa : Vec Ideal S128x128 .f32) (ba : Vec Ideal S1x128 .f32)
    (Wb : Vec Ideal S128x128 .f32) (bb : Vec Ideal S1x128 .f32) :
    k3_pay1 (F := Ideal) x aggr Wa ba Wb bb = nodeOut (N := 5000) x aggr Wa (rowOf2 ba) Wb (rowOf2 bb) := by
  funext j
  obtain ⟨p, q, rfl⟩ : ∃ (p : Fin 5000) (q : Fin 128), j = ix2 p q := ⟨j 0, j 1, eq_ix2 j⟩
  show k3_pay1 (F := Ideal) x aggr Wa ba Wb bb (ix2 p q)
    = nodeOutAt (N := 5000) x aggr Wa (rowOf2 ba) Wb (rowOf2 bb) p q
  unfold k3_pay1 nodeOutAt
  simp only [shapeCast_self]
  rw [affine_apply, Finset.sum_congr rfl (fun k _ => by rw [hidden_apply])]

/-! ## The normalisation -/

/-- The reciprocal square root of a block at an entry is that of the entry. -/
theorem rsqrt_apply {s : Shape} {φ : FTy} (a : FVec Ideal s φ) (i : s.Idx) : rsqrt a i = Ideal.rsqrt (a i) := rfl

/-- The value region 4's body stores is the normalisation of the block it loaded with the statistics it loaded. -/
theorem pay4 (var gamma : Vec Ideal S1x128 .f32) (h : Vec Ideal S5000x128 .f32) (mean beta : Vec Ideal S1x128 .f32) :
    k4_pay1 (F := Ideal) var gamma h mean beta
      = bnApply (N := 5000) h (rowOf2 mean) (rowOf2 var) (rowOf2 gamma) (rowOf2 beta) := by
  funext j
  obtain ⟨p, q, rfl⟩ : ∃ (p : Fin 5000) (q : Fin 128), j = ix2 p q := ⟨j 0, j 1, eq_ix2 j⟩
  show k4_pay1 (F := Ideal) var gamma h mean beta (ix2 p q)
    = bnApplyAt (N := 5000) h (rowOf2 mean) (rowOf2 var) (rowOf2 gamma) (rowOf2 beta) p q
  unfold k4_pay1 bnApplyAt
  simp only [shapeCast_self]
  rw [addf_apply, mulf_apply, mulf_apply, subf_apply, row_apply, row_apply, row_apply, row_apply, rsqrt_apply,
    addf_apply, broadcast_apply]
  simp only [Scalar.ofBits, Ideal.ofBits_def]

end Cert.KernelIdeal.NodeBnBody

end
-- ==== Proof.Region1.lean ====
/-
  A node-layer launch, as mathematics: when the region ends, its output array holds the node layer
  `relu ((x + aggr) · Wa + ba) · Wb + bb` followed by `relu` of the arrays the region found, whole. Point `t` of the grid works on
  rows `5000 t … 5000 t + 4999`: its input blocks are those rows of the node features and of the summed messages, the
  two whole weight matrices and the two bias rows, and what it writes back is those rows of the result, because a row
  of the node layer depends on the same row of the row-indexed operands only. The ten blocks tile the 50000 rows.
-/
import proofs.«416417_j3642132267186_1_alg».proof.Proof.Gen.KernelIdeal.Frame
import proofs.«416417_j3642132267186_1_alg».proof.Proof.NodeBnBody
import proofs.«416417_j3642132267186_1_alg».proof.Proof.SpecRows

set_option maxRecDepth 16384

noncomputable section

namespace Cert.KernelIdeal.Region1

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as matrices. -/
abbrev xArr (c : Dev nD) : Mat 50000 128 := V c main_arg0
abbrev aggrArr (c : Dev nD) : Mat 50000 128 := V c main_v9
abbrev waArr (c : Dev nD) : Mat 128 128 := V c main_arg5
abbrev baArr (c : Dev nD) : Mat 1 128 := V c main_v10
abbrev wbArr (c : Dev nD) : Mat 128 128 := V c main_arg7
abbrev bbArr (c : Dev nD) : Mat 1 128 := V c main_v11

/-- The block index maps over the grid: the row-indexed windows move with the point, the weights and the biases stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- What point `t` writes back is rows `5000 t …` of the node layer of the arrays. -/
theorem flushed_eq (c : Dev nD) (t : Fin cfg1.N) :
    (dat1 V c).flushed 6 t = ((cfg1.win 6).blk t).view.read (Elt Ideal)
      (nodeOutRelu (N := 50000) (xArr V c) (aggrArr V c) (waArr V c) (rowOf2 (baArr V c)) (wbArr V c) (rowOf2 (bbArr V c))) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz,
    View.ld_unit_zero (S := S1x128) hz]
  rw [NodeBnBody.pay1 (iblk1 V c 0 t) (iblk1 V c 1 t) (iblk1 V c 2 t) (iblk1 V c 3 t) (iblk1 V c 4 t) (iblk1 V c 5 t)]
  obtain ⟨e00, e01, e10, e11, e20, e21, e30, e31, e40, e41, e50, e51, e60, e61, ht⟩ := idx_facts t
  funext j
  obtain ⟨p, q, rfl⟩ : ∃ (p : Fin 5000) (q : Fin 128), j = ix2 p q := ⟨j 0, j 1, eq_ix2 j⟩
  have hrow : t.val * 5000 + p.val < 50000 := by have := p.isLt; omega
  have hemb : ((cfg1.win 6).blk t).view.emb (ix2 p q) = ix2 (⟨t.val * 5000 + p.val, hrow⟩ : Fin 50000) q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  show nodeOutRelu (N := 5000) (iblk1 V c 0 t) (iblk1 V c 1 t) (iblk1 V c 2 t) (rowOf2 (iblk1 V c 3 t)) (iblk1 V c 4 t) (rowOf2 (iblk1 V c 5 t)) (ix2 p q)
    = nodeOutRelu (N := 50000) (xArr V c) (aggrArr V c) (waArr V c) (rowOf2 (baArr V c)) (wbArr V c) (rowOf2 (bbArr V c)) (((cfg1.win 6).blk t).view.emb (ix2 p q))
  rw [hemb]
  show max (nodeOutAt (N := 5000) (iblk1 V c 0 t) (iblk1 V c 1 t) (iblk1 V c 2 t) (rowOf2 (iblk1 V c 3 t)) (iblk1 V c 4 t) (rowOf2 (iblk1 V c 5 t)) p q) 0
    = max (nodeOutAt (N := 50000) (xArr V c) (aggrArr V c) (waArr V c) (rowOf2 (baArr V c)) (wbArr V c) (rowOf2 (bbArr V c)) ⟨t.val * 5000 + p.val, hrow⟩ q) 0
  refine congrArg (fun z => max z 0) (nodeOutAt_row (iblk1 V c 0 t) (iblk1 V c 1 t) (iblk1 V c 2 t) (rowOf2 (iblk1 V c 3 t)) (iblk1 V c 4 t) (rowOf2 (iblk1 V c 5 t))
    (xArr V c) (aggrArr V c) (waArr V c) (rowOf2 (baArr V c)) (wbArr V c) (rowOf2 (bbArr V c)) p ⟨t.val * 5000 + p.val, hrow⟩ q ?_ ?_ ?_ ?_ ?_ ?_)
  · intro k
    show V c main_arg0 (((cfg1.win 0).blk t).view.emb (ix2 p k)) = V c main_arg0 (ix2 (⟨t.val * 5000 + p.val, hrow⟩ : Fin 50000) k)
    refine congrArg (V c main_arg0) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v9 (((cfg1.win 1).blk t).view.emb (ix2 p k)) = V c main_v9 (ix2 (⟨t.val * 5000 + p.val, hrow⟩ : Fin 50000) k)
    refine congrArg (V c main_v9) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · funext i
    obtain ⟨k, l, rfl⟩ : ∃ (k : Fin 128) (l : Fin 128), i = ix2 k l := ⟨i 0, i 1, eq_ix2 i⟩
    show V c main_arg5 (((cfg1.win 2).blk t).view.emb (ix2 k l)) = V c main_arg5 (ix2 k l)
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * l.val = l.val; omega
  · funext l
    show V c main_v10 (((cfg1.win 3).blk t).view.emb (ix2 0 l)) = V c main_v10 (ix2 0 l)
    refine congrArg (V c main_v10) (funext fun a => Fin.ext ?_)
    match a with
    | ⟨0, _⟩ => show win1_3.index t (0 : Fin 2) * 1 + 1 * 0 = 0; omega
    | ⟨1, _⟩ => show win1_3.index t (1 : Fin 2) * 128 + 1 * l.val = l.val; omega
  · funext i
    obtain ⟨k, l, rfl⟩ : ∃ (k : Fin 128) (l : Fin 128), i = ix2 k l := ⟨i 0, i 1, eq_ix2 i⟩
    show V c main_arg7 (((cfg1.win 4).blk t).view.emb (ix2 k l)) = V c main_arg7 (ix2 k l)
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * l.val = l.val; omega
  · funext l
    show V c main_v11 (((cfg1.win 5).blk t).view.emb (ix2 0 l)) = V c main_v11 (ix2 0 l)
    refine congrArg (V c main_v11) (funext fun a => Fin.ext ?_)
    match a with
    | ⟨0, _⟩ => show win1_5.index t (0 : Fin 2) * 1 + 1 * 0 = 0; omega
    | ⟨1, _⟩ => show win1_5.index t (1 : Fin 2) * 128 + 1 * l.val = l.val; omega

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v12).slice (win1_6.rect t)).set ↔ _
  rw [View.set_slice_whole, Rect.mem_set_unit]
  exact Iff.rfl

/-- Every block of rows is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- The blocks tile the array: row `r` lies in the block of point `r / 5000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY when the region ends: the node layer, followed by `relu`, of the arrays it found. -/
theorem final1 (c : Dev nD) :
    (dat1 V c).arrAt 6 cfg1.N = nodeOutRelu (N := 50000) (xArr V c) (aggrArr V c) (waArr V c) (rowOf2 (baArr V c)) (wbArr V c) (rowOf2 (bbArr V c)) :=
  (dat1 V c).arrAt_eq_of_cover 6 _ (fun t _ => flushed_eq V c t) (cover)

end Cert.KernelIdeal.Region1

end
-- ==== Proof.Region2.lean ====
/-
  An edge-message launch, as mathematics: when the region ends, its output array holds the edge
  message of the arrays the region found, whole. Point `t` of the grid works on rows `6000 t … 6000 t + 5999`: its
  input blocks are those rows of the gathered source rows and of the edge attributes, the whole weight matrix and the
  bias row, and what it writes back is those rows of the result, because a row of the edge message depends on the
  same row of the row-indexed operands only. The hundred blocks tile the 600000 rows.
-/
import proofs.«416417_j3642132267186_1_alg».proof.Proof.Gen.KernelIdeal.Frame
import proofs.«416417_j3642132267186_1_alg».proof.Proof.EdgeBody
import proofs.«416417_j3642132267186_1_alg».proof.Proof.SpecRows

set_option maxRecDepth 16384

noncomputable section

namespace Cert.KernelIdeal.Region2

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as matrices. -/
abbrev xsArr (c : Dev nD) : Mat 600000 128 := V c main_v13
abbrev eaArr (c : Dev nD) : Mat 600000 64 := V c main_arg2
abbrev weArr (c : Dev nD) : Mat 64 128 := V c main_arg9
abbrev beArr (c : Dev nD) : Mat 1 128 := V c main_v14

/-- The block index maps over the grid: the row-indexed windows move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 100 :=
  (by decide +kernel : ∀ t : Fin grid2.N, _)

/-- What point `t` writes back is rows `6000 t …` of the edge message of the arrays. -/
theorem flushed_eq (c : Dev nD) (t : Fin cfg2.N) :
    (dat2 V c).flushed 4 t = ((cfg2.win 4).blk t).view.read (Elt Ideal)
      (edgeMsg (E := 600000) (xsArr V c) (eaArr V c) (weArr V c) (rowOf2 (beArr V c))) := by
  show (cfg2.win 4).cut (grid2.coords t) ((dat2 V c).after 4 t) = _
  rw [after2_4]
  unfold out2_4
  rw [View.canon_unit_zero hz]
  simp only [View.ld_unit_zero (S := S6000x64) hz, View.ld_unit_zero (S := S64x128) hz,
    View.ld_unit_zero (S := S6000x128) hz, View.ld_unit_zero (S := S1x128) hz]
  rw [EdgeBody.pay2 (iblk2 V c 1 t) (iblk2 V c 2 t) (iblk2 V c 0 t) (iblk2 V c 3 t)]
  obtain ⟨e00, e01, e10, e11, e20, e21, e30, e31, e40, e41, ht⟩ := idx_facts t
  funext j
  obtain ⟨p, q, rfl⟩ : ∃ (p : Fin 6000) (q : Fin 128), j = ix2 p q := ⟨j 0, j 1, eq_ix2 j⟩
  have hrow : t.val * 6000 + p.val < 600000 := by have := p.isLt; omega
  have hemb : ((cfg2.win 4).blk t).view.emb (ix2 p q) = ix2 (⟨t.val * 6000 + p.val, hrow⟩ : Fin 600000) q := by
    funext a; apply Fin.ext
    match a with
    | ⟨0, _⟩ => show win2_4.index t (0 : Fin 2) * 6000 + 1 * p.val = t.val * 6000 + p.val; omega
    | ⟨1, _⟩ => show win2_4.index t (1 : Fin 2) * 128 + 1 * q.val = q.val; omega
  show edgeMsg (E := 6000) (iblk2 V c 0 t) (iblk2 V c 1 t) (iblk2 V c 2 t) (rowOf2 (iblk2 V c 3 t)) (ix2 p q)
    = edgeMsg (E := 600000) (xsArr V c) (eaArr V c) (weArr V c) (rowOf2 (beArr V c)) (((cfg2.win 4).blk t).view.emb (ix2 p q))
  rw [hemb]
  show edgeMsgAt (E := 6000) (iblk2 V c 0 t) (iblk2 V c 1 t) (iblk2 V c 2 t) (rowOf2 (iblk2 V c 3 t)) p q
    = edgeMsgAt (E := 600000) (xsArr V c) (eaArr V c) (weArr V c) (rowOf2 (beArr V c)) ⟨t.val * 6000 + p.val, hrow⟩ q
  refine edgeMsgAt_row (iblk2 V c 0 t) (iblk2 V c 1 t) (iblk2 V c 2 t) (rowOf2 (iblk2 V c 3 t))
    (xsArr V c) (eaArr V c) (weArr V c) (rowOf2 (beArr V c)) p ⟨t.val * 6000 + p.val, hrow⟩ q ?_ ?_ ?_ ?_
  · show V c main_v13 (((cfg2.win 0).blk t).view.emb (ix2 p q)) = V c main_v13 (ix2 (⟨t.val * 6000 + p.val, hrow⟩ : Fin 600000) q)
    refine congrArg (V c main_v13) (funext fun a => Fin.ext ?_)
    match a with
    | ⟨0, _⟩ => show win2_0.index t (0 : Fin 2) * 6000 + 1 * p.val = t.val * 6000 + p.val; omega
    | ⟨1, _⟩ => show win2_0.index t (1 : Fin 2) * 128 + 1 * q.val = q.val; omega
  · intro k
    show V c main_arg2 (((cfg2.win 1).blk t).view.emb (ix2 p k)) = V c main_arg2 (ix2 (⟨t.val * 6000 + p.val, hrow⟩ : Fin 600000) k)
    refine congrArg (V c main_arg2) (funext fun a => Fin.ext ?_)
    match a with
    | ⟨0, _⟩ => show win2_1.index t (0 : Fin 2) * 6000 + 1 * p.val = t.val * 6000 + p.val; omega
    | ⟨1, _⟩ => show win2_1.index t (1 : Fin 2) * 64 + 1 * k.val = k.val; omega
  · intro k
    show V c main_arg9 (((cfg2.win 2).blk t).view.emb (ix2 k q)) = V c main_arg9 (ix2 k q)
    refine congrArg (V c main_arg9) (funext fun a => Fin.ext ?_)
    match a with
    | ⟨0, _⟩ => show win2_2.index t (0 : Fin 2) * 64 + 1 * k.val = k.val; omega
    | ⟨1, _⟩ => show win2_2.index t (1 : Fin 2) * 128 + 1 * q.val = q.val; omega
  · show V c main_v14 (((cfg2.win 3).blk t).view.emb (ix2 0 q)) = V c main_v14 (ix2 0 q)
    refine congrArg (V c main_v14) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega

/-- An index of the output array is in point `t`'s block iff each coordinate is in the block's range on its axis. -/
theorem mem_blk (t : Fin cfg2.N) (i : S600000x128.Idx) :
    i ∈ ((cfg2.win 4).blk t).view.set ↔ ∀ a : Fin 2, win2_4.index t a * S6000x128.size a ≤ (i a).val ∧ (i a).val < win2_4.index t a * S6000x128.size a + S6000x128.size a := by
  show i ∈ ((View.whole main_v15).slice (win2_4.rect t)).set ↔ _
  rw [View.set_slice_whole, Rect.mem_set_unit]
  exact Iff.rfl

/-- Every block of rows is some point's. -/
theorem idx_onto : ∀ q0 : Fin 100, ∃ t : Fin cfg2.N, win2_4.index t = ![q0.val, 0] :=
  (by decide +kernel : ∀ q0 : Fin 100, ∃ t : Fin grid2.N, win2_4.index t = ![q0.val, 0])

/-- The blocks tile the array: row `r` lies in the block of point `r / 6000`. -/
theorem cover (i : S600000x128.Idx) :
    ∃ t : Fin cfg2.N, (cfg2.win 4).flush t = true ∧ i ∈ ((cfg2.win 4).blk t).view.set := by
  have hi0 : (i 0).val < 600000 := (i 0).isLt
  have hi1 : (i 1).val < 128 := (i 1).isLt
  obtain ⟨t, ht⟩ := idx_onto ⟨(i 0).val / 6000, by omega⟩
  have q0 : win2_4.index t (0 : Fin 2) = (i 0).val / 6000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 6000 ≤ (i 0).val ∧ (i 0).val < win2_4.index t (0 : Fin 2) * 6000 + 6000; omega
  | ⟨1, _⟩ => show win2_4.index t (1 : Fin 2) * 128 ≤ (i 1).val ∧ (i 1).val < win2_4.index t (1 : Fin 2) * 128 + 128; omega

/-- THE OUTPUT ARRAY when the region ends: the edge message of the arrays it found. -/
theorem final2 (c : Dev nD) :
    (dat2 V c).arrAt 4 cfg2.N = edgeMsg (E := 600000) (xsArr V c) (eaArr V c) (weArr V c) (rowOf2 (beArr V c)) :=
  (dat2 V c).arrAt_eq_of_cover 4 _ (fun t _ => flushed_eq V c t) (cover)

end Cert.KernelIdeal.Region2

end
-- ==== Proof.Region3.lean ====
/-
  A node-layer launch, as mathematics: when the region ends, its output array holds the node layer
  `relu ((x + aggr) · Wa + ba) · Wb + bb` of the arrays the region found, whole. Point `t` of the grid works on
  rows `5000 t … 5000 t + 4999`: its input blocks are those rows of the node features and of the summed messages, the
  two whole weight matrices and the two bias rows, and what it writes back is those rows of the result, because a row
  of the node layer depends on the same row of the row-indexed operands only. The ten blocks tile the 50000 rows.
-/
import proofs.«416417_j3642132267186_1_alg».proof.Proof.Gen.KernelIdeal.Frame
import proofs.«416417_j3642132267186_1_alg».proof.Proof.NodeBnBody
import proofs.«416417_j3642132267186_1_alg».proof.Proof.SpecRows

set_option maxRecDepth 16384

noncomputable section

namespace Cert.KernelIdeal.Region3

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as matrices. -/
abbrev xArr (c : Dev nD) : Mat 50000 128 := V c main_v12
abbrev aggrArr (c : Dev nD) : Mat 50000 128 := V c main_v18
abbrev waArr (c : Dev nD) : Mat 128 128 := V c main_arg11
abbrev baArr (c : Dev nD) : Mat 1 128 := V c main_v19
abbrev wbArr (c : Dev nD) : Mat 128 128 := V c main_arg13
abbrev bbArr (c : Dev nD) : Mat 1 128 := V c main_v20

/-- The block index maps over the grid: the row-indexed windows move with the point, the weights and the biases stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 10 :=
  (by decide +kernel : ∀ t : Fin grid3.N, _)

/-- What point `t` writes back is rows `5000 t …` of the node layer of the arrays. -/
theorem flushed_eq (c : Dev nD) (t : Fin cfg3.N) :
    (dat3 V c).flushed 6 t = ((cfg3.win 6).blk t).view.read (Elt Ideal)
      (nodeOut (N := 50000) (xArr V c) (aggrArr V c) (waArr V c) (rowOf2 (baArr V c)) (wbArr V c) (rowOf2 (bbArr V c))) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz,
    View.ld_unit_zero (S := S1x128) hz]
  rw [NodeBnBody.pay3 (iblk3 V c 0 t) (iblk3 V c 1 t) (iblk3 V c 2 t) (iblk3 V c 3 t) (iblk3 V c 4 t) (iblk3 V c 5 t)]
  obtain ⟨e00, e01, e10, e11, e20, e21, e30, e31, e40, e41, e50, e51, e60, e61, ht⟩ := idx_facts t
  funext j
  obtain ⟨p, q, rfl⟩ : ∃ (p : Fin 5000) (q : Fin 128), j = ix2 p q := ⟨j 0, j 1, eq_ix2 j⟩
  have hrow : t.val * 5000 + p.val < 50000 := by have := p.isLt; omega
  have hemb : ((cfg3.win 6).blk t).view.emb (ix2 p q) = ix2 (⟨t.val * 5000 + p.val, hrow⟩ : Fin 50000) q := by
    funext a; apply Fin.ext
    match a with
    | ⟨0, _⟩ => show win3_6.index t (0 : Fin 2) * 5000 + 1 * p.val = t.val * 5000 + p.val; omega
    | ⟨1, _⟩ => show win3_6.index t (1 : Fin 2) * 128 + 1 * q.val = q.val; omega
  show nodeOut (N := 5000) (iblk3 V c 0 t) (iblk3 V c 1 t) (iblk3 V c 2 t) (rowOf2 (iblk3 V c 3 t)) (iblk3 V c 4 t) (rowOf2 (iblk3 V c 5 t)) (ix2 p q)
    = nodeOut (N := 50000) (xArr V c) (aggrArr V c) (waArr V c) (rowOf2 (baArr V c)) (wbArr V c) (rowOf2 (bbArr V c)) (((cfg3.win 6).blk t).view.emb (ix2 p q))
  rw [hemb]
  show nodeOutAt (N := 5000) (iblk3 V c 0 t) (iblk3 V c 1 t) (iblk3 V c 2 t) (rowOf2 (iblk3 V c 3 t)) (iblk3 V c 4 t) (rowOf2 (iblk3 V c 5 t)) p q
    = nodeOutAt (N := 50000) (xArr V c) (aggrArr V c) (waArr V c) (rowOf2 (baArr V c)) (wbArr V c) (rowOf2 (bbArr V c)) ⟨t.val * 5000 + p.val, hrow⟩ q
  refine nodeOutAt_row (iblk3 V c 0 t) (iblk3 V c 1 t) (iblk3 V c 2 t) (rowOf2 (iblk3 V c 3 t)) (iblk3 V c 4 t) (rowOf2 (iblk3 V c 5 t))
    (xArr V c) (aggrArr V c) (waArr V c) (rowOf2 (baArr V c)) (wbArr V c) (rowOf2 (bbArr V c)) p ⟨t.val * 5000 + p.val, hrow⟩ q ?_ ?_ ?_ ?_ ?_ ?_
  · intro k
    show V c main_v12 (((cfg3.win 0).blk t).view.emb (ix2 p k)) = V c main_v12 (ix2 (⟨t.val * 5000 + p.val, hrow⟩ : Fin 50000) k)
    refine congrArg (V c main_v12) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k
    show V c main_v18 (((cfg3.win 1).blk t).view.emb (ix2 p k)) = V c main_v18 (ix2 (⟨t.val * 5000 + p.val, hrow⟩ : Fin 50000) k)
    refine congrArg (V c main_v18) (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * k.val = k.val; omega
  · funext i
    obtain ⟨k, l, rfl⟩ : ∃ (k : Fin 128) (l : Fin 128), i = ix2 k l := ⟨i 0, i 1, eq_ix2 i⟩
    show V c main_arg11 (((cfg3.win 2).blk t).view.emb (ix2 k l)) = V c main_arg11 (ix2 k l)
    refine congrArg (V c main_arg11) (funext fun a => Fin.ext ?_)
    match a with
    | ⟨0, _⟩ => show win3_2.index t (0 : Fin 2) * 128 + 1 * k.val = k.val; omega
    | ⟨1, _⟩ => show win3_2.index t (1 : Fin 2) * 128 + 1 * l.val = l.val; omega
  · funext l
    show V c main_v19 (((cfg3.win 3).blk t).view.emb (ix2 0 l)) = V c main_v19 (ix2 0 l)
    refine congrArg (V c main_v19) (funext fun a => Fin.ext ?_)
    match a with
    | ⟨0, _⟩ => show win3_3.index t (0 : Fin 2) * 1 + 1 * 0 = 0; omega
    | ⟨1, _⟩ => show win3_3.index t (1 : Fin 2) * 128 + 1 * l.val = l.val; omega
  · funext i
    obtain ⟨k, l, rfl⟩ : ∃ (k : Fin 128) (l : Fin 128), i = ix2 k l := ⟨i 0, i 1, eq_ix2 i⟩
    show V c main_arg13 (((cfg3.win 4).blk t).view.emb (ix2 k l)) = V c main_arg13 (ix2 k l)
    refine congrArg (V c main_arg13) (funext fun a => Fin.ext ?_)
    match a with
    | ⟨0, _⟩ => show win3_4.index t (0 : Fin 2) * 128 + 1 * k.val = k.val; omega
    | ⟨1, _⟩ => show win3_4.index t (1 : Fin 2) * 128 + 1 * l.val = l.val; omega
  · funext l
    show V c main_v20 (((cfg3.win 5).blk t).view.emb (ix2 0 l)) = V c main_v20 (ix2 0 l)
    refine congrArg (V c main_v20) (funext fun a => Fin.ext ?_)
    match a with
    | ⟨0, _⟩ => show win3_5.index t (0 : Fin 2) * 1 + 1 * 0 = 0; omega
    | ⟨1, _⟩ => show win3_5.index t (1 : Fin 2) * 128 + 1 * l.val = l.val; omega

/-- An index of the output array is in point `t`'s block iff each coordinate is in the block's range on its axis. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v21).slice (win3_6.rect t)).set ↔ _
  rw [View.set_slice_whole, Rect.mem_set_unit]
  exact Iff.rfl

/-- Every block of rows is some point's. -/
theorem idx_onto : ∀ q0 : Fin 10, ∃ t : Fin cfg3.N, win3_6.index t = ![q0.val, 0] :=
  (by decide +kernel : ∀ q0 : Fin 10, ∃ t : Fin grid3.N, win3_6.index t = ![q0.val, 0])

/-- The blocks tile the array: row `r` lies in the block of point `r / 5000`. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := idx_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- THE OUTPUT ARRAY when the region ends: the node layer of the arrays it found. -/
theorem final3 (c : Dev nD) :
    (dat3 V c).arrAt 6 cfg3.N = nodeOut (N := 50000) (xArr V c) (aggrArr V c) (waArr V c) (rowOf2 (baArr V c)) (wbArr V c) (rowOf2 (bbArr V c)) :=
  (dat3 V c).arrAt_eq_of_cover 6 _ (fun t _ => flushed_eq V c t) (cover)

end Cert.KernelIdeal.Region3

end
-- ==== Proof.Region4.lean ====
/-
  The normalisation launch, as mathematics: when the region ends, its output array holds
  `gamma · (h - mean) · rsqrt (var + eps) + beta` of the arrays the region found, whole. Point `t` of the grid works
  on rows `5000 t … 5000 t + 4999`: its input blocks are those rows of `h` and the four whole rows of column
  statistics and parameters, and what it writes back is those rows of the result, because an entry of the
  normalisation depends on the same entry of `h` and on its column's statistics only. The ten blocks tile the 50000
  rows.
-/
import proofs.«416417_j3642132267186_1_alg».proof.Proof.Gen.KernelIdeal.Frame
import proofs.«416417_j3642132267186_1_alg».proof.Proof.NodeBnBody
import proofs.«416417_j3642132267186_1_alg».proof.Proof.SpecRows

set_option maxRecDepth 16384

noncomputable section

namespace Cert.KernelIdeal.Region4

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as matrices. -/
abbrev hArr (c : Dev nD) : Mat 50000 128 := V c main_v21
abbrev meanArr (c : Dev nD) : Mat 1 128 := V c main_v32
abbrev varArr (c : Dev nD) : Mat 1 128 := V c main_v33
abbrev gammaArr (c : Dev nD) : Mat 1 128 := V c main_v34
abbrev betaArr (c : Dev nD) : Mat 1 128 := V c main_v35

/-- The block index maps over the grid: the row-indexed windows move with the point, the statistics and the
    parameters stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 10 :=
  (by decide +kernel : ∀ t : Fin grid4.N, _)

/-- What point `t` writes back is rows `5000 t …` of the normalisation of the arrays. -/
theorem flushed_eq (c : Dev nD) (t : Fin cfg4.N) :
    (dat4 V c).flushed 5 t = ((cfg4.win 5).blk t).view.read (Elt Ideal)
      (bnApply (N := 50000) (hArr V c) (rowOf2 (meanArr V c)) (rowOf2 (varArr V c)) (rowOf2 (gammaArr V c)) (rowOf2 (betaArr V c))) := by
  show (cfg4.win 5).cut (grid4.coords t) ((dat4 V c).after 5 t) = _
  rw [after4_5]
  unfold out4_5
  rw [View.canon_unit_zero hz]
  simp only [View.ld_unit_zero (S := S5000x128) hz, View.ld_unit_zero (S := S1x128) hz]
  rw [NodeBnBody.pay4 (iblk4 V c 2 t) (iblk4 V c 3 t) (iblk4 V c 0 t) (iblk4 V c 1 t) (iblk4 V c 4 t)]
  obtain ⟨e00, e01, e10, e11, e20, e21, e30, e31, e40, e41, e50, e51, ht⟩ := idx_facts t
  funext j
  obtain ⟨p, q, rfl⟩ : ∃ (p : Fin 5000) (q : Fin 128), j = ix2 p q := ⟨j 0, j 1, eq_ix2 j⟩
  have hrow : t.val * 5000 + p.val < 50000 := by have := p.isLt; omega
  have hemb : ((cfg4.win 5).blk t).view.emb (ix2 p q) = ix2 (⟨t.val * 5000 + p.val, hrow⟩ : Fin 50000) q := by
    funext a; apply Fin.ext
    match a with
    | ⟨0, _⟩ => show win4_5.index t (0 : Fin 2) * 5000 + 1 * p.val = t.val * 5000 + p.val; omega
    | ⟨1, _⟩ => show win4_5.index t (1 : Fin 2) * 128 + 1 * q.val = q.val; omega
  show bnApply (N := 5000) (iblk4 V c 0 t) (rowOf2 (iblk4 V c 1 t)) (rowOf2 (iblk4 V c 2 t)) (rowOf2 (iblk4 V c 3 t)) (rowOf2 (iblk4 V c 4 t)) (ix2 p q)
    = bnApply (N := 50000) (hArr V c) (rowOf2 (meanArr V c)) (rowOf2 (varArr V c)) (rowOf2 (gammaArr V c)) (rowOf2 (betaArr V c)) (((cfg4.win 5).blk t).view.emb (ix2 p q))
  rw [hemb]
  show bnApplyAt (N := 5000) (iblk4 V c 0 t) (rowOf2 (iblk4 V c 1 t)) (rowOf2 (iblk4 V c 2 t)) (rowOf2 (iblk4 V c 3 t)) (rowOf2 (iblk4 V c 4 t)) p q
    = bnApplyAt (N := 50000) (hArr V c) (rowOf2 (meanArr V c)) (rowOf2 (varArr V c)) (rowOf2 (gammaArr V c)) (rowOf2 (betaArr V c)) ⟨t.val * 5000 + p.val, hrow⟩ q
  refine bnApplyAt_row (iblk4 V c 0 t) (rowOf2 (iblk4 V c 1 t)) (rowOf2 (iblk4 V c 2 t)) (rowOf2 (iblk4 V c 3 t)) (rowOf2 (iblk4 V c 4 t))
    (hArr V c) (rowOf2 (meanArr V c)) (rowOf2 (varArr V c)) (rowOf2 (gammaArr V c)) (rowOf2 (betaArr V c)) p ⟨t.val * 5000 + p.val, hrow⟩ q ?_ ?_ ?_ ?_ ?_
  · show V c main_v21 (((cfg4.win 0).blk t).view.emb (ix2 p q)) = V c main_v21 (ix2 (⟨t.val * 5000 + p.val, hrow⟩ : Fin 50000) q)
    refine congrArg (V c main_v21) (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * q.val = q.val; omega
  · funext l
    show V c main_v32 (((cfg4.win 1).blk t).view.emb (ix2 0 l)) = V c main_v32 (ix2 0 l)
    refine congrArg (V c main_v32) (funext fun a => Fin.ext ?_)
    match a with
    | ⟨0, _⟩ => show win4_1.index t (0 : Fin 2) * 1 + 1 * 0 = 0; omega
    | ⟨1, _⟩ => show win4_1.index t (1 : Fin 2) * 128 + 1 * l.val = l.val; omega
  · funext l
    show V c main_v33 (((cfg4.win 2).blk t).view.emb (ix2 0 l)) = V c main_v33 (ix2 0 l)
    refine congrArg (V c main_v33) (funext fun a => Fin.ext ?_)
    match a with
    | ⟨0, _⟩ => show win4_2.index t (0 : Fin 2) * 1 + 1 * 0 = 0; omega
    | ⟨1, _⟩ => show win4_2.index t (1 : Fin 2) * 128 + 1 * l.val = l.val; omega
  · funext l
    show V c main_v34 (((cfg4.win 3).blk t).view.emb (ix2 0 l)) = V c main_v34 (ix2 0 l)
    refine congrArg (V c main_v34) (funext fun a => Fin.ext ?_)
    match a with
    | ⟨0, _⟩ => show win4_3.index t (0 : Fin 2) * 1 + 1 * 0 = 0; omega
    | ⟨1, _⟩ => show win4_3.index t (1 : Fin 2) * 128 + 1 * l.val = l.val; omega
  · funext l
    show V c main_v35 (((cfg4.win 4).blk t).view.emb (ix2 0 l)) = V c main_v35 (ix2 0 l)
    refine congrArg (V c main_v35) (funext fun a => Fin.ext ?_)
    match a with
    | ⟨0, _⟩ => show win4_4.index t (0 : Fin 2) * 1 + 1 * 0 = 0; omega
    | ⟨1, _⟩ => show win4_4.index t (1 : Fin 2) * 128 + 1 * l.val = l.val; omega

/-- An index of the output array is in point `t`'s block iff each coordinate is in the block's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v36).slice (win4_5.rect t)).set ↔ _
  rw [View.set_slice_whole, Rect.mem_set_unit]
  exact Iff.rfl

/-- Every block of rows is some point's. -/
theorem idx_onto : ∀ q0 : Fin 10, ∃ t : Fin cfg4.N, win4_5.index t = ![q0.val, 0] :=
  (by decide +kernel : ∀ q0 : Fin 10, ∃ t : Fin grid4.N, win4_5.index t = ![q0.val, 0])

/-- The blocks tile the array: row `r` lies in the block of point `r / 5000`. -/
theorem cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := idx_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE OUTPUT ARRAY when the region ends: the normalisation of the arrays it found. -/
theorem final4 (c : Dev nD) :
    (dat4 V c).arrAt 5 cfg4.N = bnApply (N := 50000) (hArr V c) (rowOf2 (meanArr V c)) (rowOf2 (varArr V c)) (rowOf2 (gammaArr V c)) (rowOf2 (betaArr V c)) :=
  (dat4 V c).arrAt_eq_of_cover 5 _ (fun t _ => flushed_eq V c t) (cover)

end Cert.KernelIdeal.Region4

end
-- ==== Proof.HostFns.lean ====
/-
  The host operations the program applies between its kernel launches, named once as functions: the source and target
  node of every edge (the two rows of the edge list), the row gather `x[src]` with negative indices wrapped as numpy
  does, the sum of the edge messages into their target nodes, and a column's mean and (biased) variance over all nodes.
  The reference applies the same operations; nothing here is ever opened, the two programs' values are compared as
  these functions of equal arguments.
-/
import proofs.«416417_j3642132267186_1_alg».proof.KernelIdeal
import proofs.«416417_j3642132267186_1_alg».proof.Proof.Gen.KernelIdeal
import Idealize.ShloMosaic.PureOps.Ideal

noncomputable section

namespace Cert.KernelIdeal.HostFns

open Cert.KernelIdeal Cert.KernelIdeal.Facts₀ Cert.KernelIdeal.Facts Idealize.ShloMosaic

/-- Each edge's source node: row 0 of the edge list. -/
def srcOf (a1 : IVec S2x600000 32) : IVec S600000 32 :=
  shapeCast S600000 (extractStridedSlice S1x600000 ![0, 0] a1 slices_S2x600000_S1x600000_0_0) shapeCasts_S1x600000_S600000

/-- Each edge's target node: row 1 of the edge list. -/
def dstOf (a1 : IVec S2x600000 32) : IVec S600000 32 :=
  shapeCast S600000 (extractStridedSlice S1x600000 ![1, 0] a1 slices_S2x600000_S1x600000_1_0) shapeCasts_S1x600000_S600000

/-- The gather's start indices: a negative source index `s` reads row `s + 50000`. -/
def takeIdx (a1 : IVec S2x600000 32) : IVec S600000x1 32 :=
  broadcastInDim S600000x1 ![0] bcast_S600000_S600000x1_0
    (select (cmpi .slt (srcOf a1) (broadcastInDim S600000 ![] bcast_S_S600000 (constantI S_ 32 0#32)))
      (addi (srcOf a1) (broadcastInDim S600000 ![] bcast_S_S600000 (constantI S_ 32 50000#32)))
      (srcOf a1))

/-- The source node's row for every edge. -/
def gatherRows (x : FVec Ideal S50000x128 .f32) (a1 : IVec S2x600000 32) : FVec Ideal S600000x128 .f32 :=
  Host.gather gather_S50000x128_S600000x1_S600000x128_1_0_n_n_0_1_1128 x (takeIdx a1)

/-- The edge messages summed into their target nodes, from zero. -/
def segSum (msg : FVec Ideal S600000x128 .f32) (a1 : IVec S2x600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstOf a1)) msg

/-- Each column's mean over the 50000 nodes. -/
def colMean (h : FVec Ideal S50000x128 .f32) : FVec Ideal S128 .f32 :=
  Host.divf (Host.reduceAdd h (constant (F := Ideal) S_ .f32 0x00000000#32) reducesTo_S50000x128_S128_d0 h_S_)
    (broadcastInDim S128 ![] bcast_S_S128 (constant (F := Ideal) S_ .f32 0x47435000#32))

/-- Each column's mean squared deviation from its mean. -/
def colVar (h : FVec Ideal S50000x128 .f32) : FVec Ideal S128 .f32 :=
  Host.divf
    (Host.reduceAdd
      (mulf (subf h (broadcastInDim S50000x128 ![0, 1] bcast_S1x128_S50000x128_0_1 (broadcastInDim S1x128 ![1] bcast_S128_S1x128_1 (colMean h))))
        (subf h (broadcastInDim S50000x128 ![0, 1] bcast_S1x128_S50000x128_0_1 (broadcastInDim S1x128 ![1] bcast_S128_S1x128_1 (colMean h)))))
      (constant (F := Ideal) S_ .f32 0x00000000#32) reducesTo_S50000x128_S128_d0 h_S_)
    (broadcastInDim S128 ![] bcast_S_S128 (constant (F := Ideal) S_ .f32 0x47435000#32))

/-- A vector of 128 entries laid out as one row. -/
def asRow (v : FVec Ideal S128 .f32) : FVec Ideal S1x128 .f32 := shapeCast S1x128 v shapeCasts_S128_S1x128

end Cert.KernelIdeal.HostFns

end
-- ==== Proof.HostA.lean ====
/-
  What the two edge-message launches find in their arrays. Before each, the host gathers the source node's row for
  every edge: it wraps a negative index, gathers, and then replaces the row of an index that is still outside
  `0 … 49999` by a fill value. Where every source index names a node — the statement's domain — no row is replaced,
  and the launch finds the plain gather. The bias vector arrives laid out as one row, and the edge attributes and the
  weights are the argument arrays, which nothing has written.
-/
import proofs.«416417_j3642132267186_1_alg».proof.Proof.Gen.KernelIdeal.Frame
import proofs.«416417_j3642132267186_1_alg».proof.Proof.HostFns
import proofs.«416417_j3642132267186_1_alg».proof.Defs
import proofs.«416417_j3642132267186_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx

set_option maxRecDepth 16384

noncomputable section

namespace Cert.KernelIdeal.HostA

open Cert.KernelIdeal Cert.KernelIdeal.Gen Cert.KernelIdeal.HostFns
open Idealize.ShloMosaic Idealize.ShloMosaic.TcCoe Idealize.SL.Sem

variable (m : (ℓ : Loc nD τ sig) → Buf (Elt Ideal) ℓ) (ρ : Dev nD → PrngReg)

/-- A buffer none of a stretch's operations writes holds after the stretch what it held before it. -/
local macro "stretch_keeps" ops:ident : tactic =>
  `(tactic| (refine StableHlo.after_of_forall_not_mem _ _ (List.forall_iff_forall_mem.mp ?_)
             simp only [$ops:ident, List.flatten_cons, List.flatten_nil, List.append_nil, List.cons_append, List.nil_append,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Up to the first launch nothing writes an argument other than through the three host stretches. -/
theorem W3_of_kept (c : Dev nD) (b : Ref sig .tc)
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W3 m ρ c (Proc.devRef .tc b) = m ((c : Thread nD τ).loc b) :=
  h2.trans (h1.trans (h0.trans rfl))

/-! ## Words and folds -/

/-- A shape of no axes has one index. -/
local instance : Subsingleton (⟨0, ![]⟩ : Shape).Idx := ⟨fun a b => funext fun d => d.elim0⟩

/-- A fold by `and` that starts at 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from 1 of an array of 1s is 1 at every index of the result. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

/-- A signed word with `0 ≤ w < 50000` is not negative and is at most 49999. -/
theorem word_in_range {w : BitVec 32} (h0 : IntOp.cmpi .sge w 0#32 = 1#1) (h1 : IntOp.cmpi .slt w 50000#32 = 1#1) :
    IntOp.cmpi .slt w 0#32 = 0#1 ∧ IntOp.cmpi .sle w 49999#32 = 1#1 := by
  have z : (0#32 : BitVec 32).toInt = 0 := by decide
  have n : (50000#32 : BitVec 32).toInt = 50000 := by decide
  have n' : (49999#32 : BitVec 32).toInt = 49999 := by decide
  have hw0 : (0#32 : BitVec 32).toInt ≤ w.toInt := of_decide_eq_true ((StableHlo.Predicate.ofBool_eq_one_iff _).1 h0)
  have hw1 : w.toInt < (50000#32 : BitVec 32).toInt := of_decide_eq_true ((StableHlo.Predicate.ofBool_eq_one_iff _).1 h1)
  rw [z] at hw0; rw [n] at hw1
  constructor
  · show BitVec.ofBool (decide (w.toInt < (0#32 : BitVec 32).toInt)) = 0#1
    rw [z, decide_eq_false (by omega)]; rfl
  · show BitVec.ofBool (decide (w.toInt ≤ (49999#32 : BitVec 32).toInt)) = 1#1
    rw [n', decide_eq_true (by omega)]; rfl

/-! ## The host's `take` -/

/-- The gather's start indices from the source indices `s`: a negative `s e` reads row `s e + 50000`. -/
def wrapIdx (s : IVec S600000 32) : IVec S600000x1 32 :=
  broadcastInDim S600000x1 ![0] Facts₀.bcast_S600000_S600000x1_0
    (select (cmpi .slt s (broadcastInDim S600000 ![] Facts₀.bcast_S_S600000 (constantI S_ 32 0#32)))
      (addi s (broadcastInDim S600000 ![] Facts₀.bcast_S_S600000 (constantI S_ 32 50000#32)))
      s)

/-- What the host's `take` leaves from the table `x` and the source indices `s`: the row of `x` at each wrapped
    index, except that where the wrapped index is still outside `0 … 49999` the row is the fill value. -/
def takeOf (x : FVec Ideal S50000x128 .f32) (s : IVec S600000 32) : FVec Ideal S600000x128 .f32 :=
  select
    (broadcastInDim S600000x128 ![0] Facts₀.bcast_S600000_S600000x128_0
      (Host.reduce IntOp.andi
        (andi
          (cmpi .sge (wrapIdx s) (broadcastInDim S600000x1 ![] Facts₀.bcast_S_S600000x1 (constantI S_ 32 0#32)))
          (cmpi .sle (wrapIdx s)
            (broadcastInDim S600000x1 ![0, 1] Facts₀.bcast_S1x1_S600000x1_0_1
              (broadcastInDim S1x1 ![1] Facts₀.bcast_S1_S1x1_1 (constantI S1 32 49999#32)))))
        (constantI S_ 1 1#1) Facts₀.reducesTo_S600000x1_S600000_d1 Facts₀.h_S_))
    (Host.gather gather_S50000x128_S600000x1_S600000x128_1_0_n_n_0_1_1128 x (wrapIdx s))
    (broadcastInDim S600000x128 ![] Facts₀.bcast_S_S600000x128 (constant (F := Ideal) S_ .f32 0x7FC00000#32))

/-- Where every source index names a node, the in-range test holds at every edge. -/
theorem wrap_mask_one (s : IVec S600000 32)
    (hs : ∀ e : S600000.Idx, IntOp.cmpi .sge (s e) 0#32 = 1#1 ∧ IntOp.cmpi .slt (s e) 50000#32 = 1#1)
    (k : S600000x1.Idx) :
    andi
      (cmpi .sge (wrapIdx s) (broadcastInDim S600000x1 ![] Facts₀.bcast_S_S600000x1 (constantI S_ 32 0#32)))
      (cmpi .sle (wrapIdx s)
        (broadcastInDim S600000x1 ![0, 1] Facts₀.bcast_S1x1_S600000x1_0_1
          (broadcastInDim S1x1 ![1] Facts₀.bcast_S1_S1x1_1 (constantI S1 32 49999#32)))) k = 1#1 := by
  have key : ∀ e : S600000.Idx,
      IntOp.andi
        (IntOp.cmpi .sge (Scalar.select (IntOp.cmpi .slt (s e) 0#32) (IntOp.addi (s e) 50000#32) (s e)) 0#32)
        (IntOp.cmpi .sle (Scalar.select (IntOp.cmpi .slt (s e) 0#32) (IntOp.addi (s e) 50000#32) (s e)) 49999#32)
        = 1#1 := by
    intro e
    obtain ⟨h0, h1⟩ := hs e
    obtain ⟨hn, hle⟩ := word_in_range h0 h1
    rw [hn, ValueIdx.select_zero, h0, hle]
    decide
  exact key _

/-- Every edge's source index names a node: `0 ≤ src e < 50000`, as the two signed comparisons the statement's domain makes. -/
def SrcInRange (a1 : IVec S2x600000 32) : Prop :=
  ∀ e : S600000.Idx, IntOp.cmpi .sge (srcOf a1 e) 0#32 = 1#1 ∧ IntOp.cmpi .slt (srcOf a1 e) 50000#32 = 1#1

/-- The statement's domain gives it, on every device. -/
theorem srcInRange_of_pre (hpre : Cert.Pre_KernelIdeal m) (c : Dev nD) : SrcInRange (m ((c : Thread nD τ).loc main_arg1)) := by
  have h := congrFun (hpre c) (fun a => a.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  have hall := (IntOp.andi_eq_one.1 h).2
  intro e
  exact IntOp.andi_eq_one.1 (Host.reduce_andi_all _ _ _ _ _ hall e)

/-- Where every source index names a node the host's `take` is the plain gather: the wrap returns the index itself,
    both comparisons hold at every edge, so their conjunction reduced over the unit axis is 1 at every edge and the
    select keeps every gathered row. -/
theorem takeOf_of_inRange (x : FVec Ideal S50000x128 .f32) (a1 : IVec S2x600000 32) (hr : SrcInRange a1) :
    takeOf x (srcOf a1) = gatherRows x a1 := by
  funext j
  have hmask : broadcastInDim S600000x128 ![0] Facts₀.bcast_S600000_S600000x128_0
      (Host.reduce IntOp.andi
        (andi
          (cmpi .sge (wrapIdx (srcOf a1)) (broadcastInDim S600000x1 ![] Facts₀.bcast_S_S600000x1 (constantI S_ 32 0#32)))
          (cmpi .sle (wrapIdx (srcOf a1))
            (broadcastInDim S600000x1 ![0, 1] Facts₀.bcast_S1x1_S600000x1_0_1
              (broadcastInDim S1x1 ![1] Facts₀.bcast_S1_S1x1_1 (constantI S1 32 49999#32)))))
        (constantI S_ 1 1#1) Facts₀.reducesTo_S600000x1_S600000_d1 Facts₀.h_S_) j = 1#1 :=
    reduce_andi_ones _ _ _ _ (wrap_mask_one (srcOf a1) hr) (fun _ => rfl) _
  unfold takeOf
  rw [ValueIdx.select_apply, hmask, ValueIdx.select_one]
  rfl

/-- The first `take`, read off its 23 operations: it leaves `takeOf` of the table and the source indices it found. -/
theorem take_stretch0 (V : Valuation τ sig (Elt Ideal)) :
    (StableHlo.after (hostOps0_1 (F := Ideal)) V (Proc.devRef .tc main_v4) : FVec Ideal S600000x128 .f32)
      = takeOf (V (Proc.devRef .tc main_arg0) : FVec Ideal S50000x128 .f32) (V (Proc.devRef .tc main_v1) : IVec S600000 32) := by
  after_results_simp
  simp only [StableHlo.TRef.ofBuf, StableHlo.TRef.toBuf, cast_eq]
  rfl

/-- The second `take`, the same operations over the first layer's output. -/
theorem take_stretch2 (V : Valuation τ sig (Elt Ideal)) :
    (StableHlo.after (hostOps2 (F := Ideal)) V (Proc.devRef .tc main_v13) : FVec Ideal S600000x128 .f32)
      = takeOf (V (Proc.devRef .tc main_v12) : FVec Ideal S50000x128 .f32) (V (Proc.devRef .tc main_v1) : IVec S600000 32) := by
  after_results_simp
  simp only [StableHlo.TRef.ofBuf, StableHlo.TRef.toBuf, cast_eq]
  rfl

/-- After the first host stretch the source indices are row 0 of the edge list. -/
theorem W1_v1 (c : Dev nD) :
    (W1 m ρ c (Proc.devRef .tc main_v1) : IVec S600000 32) = srcOf (m ((c : Thread nD τ).loc main_arg1)) := by
  have h0 : W0 m ρ c (Proc.devRef .tc main_arg1) = m ((c : Thread nD τ).loc main_arg1) := rfl
  rw [← h0]
  show StableHlo.after hostOps0 (W0 m ρ c) (Proc.devRef .tc main_v1) = srcOf (W0 m ρ c (Proc.devRef .tc main_arg1))
  generalize W0 m ρ c = V0
  after_results
  rfl

/-! ## At the first edge-message launch -/

theorem W3_v4 (c : Dev nD) (hr : SrcInRange (m ((c : Thread nD τ).loc main_arg1))) :
    (W3 m ρ c (Proc.devRef .tc main_v4) : FVec Ideal S600000x128 .f32) = gatherRows (m ((c : Thread nD τ).loc main_arg0)) (m ((c : Thread nD τ).loc main_arg1)) := by
  have hx : W1 m ρ c (Proc.devRef .tc main_arg0) = m ((c : Thread nD τ).loc main_arg0) :=
    (by stretch_keeps hostOps0 : W1 m ρ c (Proc.devRef .tc main_arg0) = W0 m ρ c (Proc.devRef .tc main_arg0)).trans rfl
  exact calc (W3 m ρ c (Proc.devRef .tc main_v4) : FVec Ideal S600000x128 .f32)
    _ = W2 m ρ c (Proc.devRef .tc main_v4) := by stretch_keeps hostOps0_2
    _ = takeOf (W1 m ρ c (Proc.devRef .tc main_arg0) : FVec Ideal S50000x128 .f32) (W1 m ρ c (Proc.devRef .tc main_v1) : IVec S600000 32) :=
      take_stretch0 (W1 m ρ c)
    _ = takeOf (m ((c : Thread nD τ).loc main_arg0)) (srcOf (m ((c : Thread nD τ).loc main_arg1))) := by
      rw [hx, W1_v1 m ρ c]
    _ = gatherRows (m ((c : Thread nD τ).loc main_arg0)) (m ((c : Thread nD τ).loc main_arg1)) :=
      takeOf_of_inRange _ _ hr

theorem W3_v5 (c : Dev nD) : (W3 m ρ c (Proc.devRef .tc main_v5) : FVec Ideal S1x128 .f32) = asRow (m ((c : Thread nD τ).loc main_arg4)) := by
  have keep : W2 m ρ c (Proc.devRef .tc main_arg4) = m ((c : Thread nD τ).loc main_arg4) :=
    calc W2 m ρ c (Proc.devRef .tc main_arg4)
      _ = W1 m ρ c (Proc.devRef .tc main_arg4) := by stretch_keeps hostOps0_1
      _ = W0 m ρ c (Proc.devRef .tc main_arg4) := by stretch_keeps hostOps0
      _ = m ((c : Thread nD τ).loc main_arg4) := rfl
  rw [← keep]
  show StableHlo.after hostOps0_2 (W2 m ρ c) (Proc.devRef .tc main_v5) = asRow (W2 m ρ c (Proc.devRef .tc main_arg4))
  generalize W2 m ρ c = V2
  after_results
  rfl

theorem W3_arg2 (c : Dev nD) : W3 m ρ c (Proc.devRef .tc main_arg2) = m ((c : Thread nD τ).loc main_arg2) := by
  exact W3_of_kept m ρ c main_arg2 (by stretch_keeps hostOps0_2) (by stretch_keeps hostOps0_1) (by stretch_keeps hostOps0)

theorem W3_arg3 (c : Dev nD) : W3 m ρ c (Proc.devRef .tc main_arg3) = m ((c : Thread nD τ).loc main_arg3) := by
  exact W3_of_kept m ρ c main_arg3 (by stretch_keeps hostOps0_2) (by stretch_keeps hostOps0_1) (by stretch_keeps hostOps0)

/-! ## At the second edge-message launch -/

theorem W8_v13 (c : Dev nD) (hr : SrcInRange (m ((c : Thread nD τ).loc main_arg1))) :
    (W8 m ρ c (Proc.devRef .tc main_v13) : FVec Ideal S600000x128 .f32) = gatherRows (W6 m ρ c (Proc.devRef .tc main_v12) : FVec Ideal S50000x128 .f32) (m ((c : Thread nD τ).loc main_arg1)) := by
  have hs : (W6 m ρ c (Proc.devRef .tc main_v1) : IVec S600000 32) = srcOf (m ((c : Thread nD τ).loc main_arg1)) :=
    calc W6 m ρ c (Proc.devRef .tc main_v1)
      _ = W5 m ρ c (Proc.devRef .tc main_v1) := W6_of_ne m ρ c main_v1 (by decide)
      _ = W4 m ρ c (Proc.devRef .tc main_v1) := by stretch_keeps hostOps1
      _ = W3 m ρ c (Proc.devRef .tc main_v1) := W4_of_ne m ρ c main_v1 (by decide)
      _ = W2 m ρ c (Proc.devRef .tc main_v1) := by stretch_keeps hostOps0_2
      _ = W1 m ρ c (Proc.devRef .tc main_v1) := by stretch_keeps hostOps0_1
      _ = srcOf (m ((c : Thread nD τ).loc main_arg1)) := W1_v1 m ρ c
  exact calc (W8 m ρ c (Proc.devRef .tc main_v13) : FVec Ideal S600000x128 .f32)
    _ = W7 m ρ c (Proc.devRef .tc main_v13) := by stretch_keeps hostOps2_1
    _ = takeOf (W6 m ρ c (Proc.devRef .tc main_v12) : FVec Ideal S50000x128 .f32) (W6 m ρ c (Proc.devRef .tc main_v1) : IVec S600000 32) :=
      take_stretch2 (W6 m ρ c)
    _ = takeOf (W6 m ρ c (Proc.devRef .tc main_v12) : FVec Ideal S50000x128 .f32) (srcOf (m ((c : Thread nD τ).loc main_arg1))) := by
      rw [hs]
    _ = gatherRows (W6 m ρ c (Proc.devRef .tc main_v12) : FVec Ideal S50000x128 .f32) (m ((c : Thread nD τ).loc main_arg1)) :=
      takeOf_of_inRange _ _ hr

theorem W8_v14 (c : Dev nD) : (W8 m ρ c (Proc.devRef .tc main_v14) : FVec Ideal S1x128 .f32) = asRow (m ((c : Thread nD τ).loc main_arg10)) := by
  have keep : W7 m ρ c (Proc.devRef .tc main_arg10) = m ((c : Thread nD τ).loc main_arg10) :=
    calc W7 m ρ c (Proc.devRef .tc main_arg10)
      _ = W6 m ρ c (Proc.devRef .tc main_arg10) := by stretch_keeps hostOps2
      _ = W5 m ρ c (Proc.devRef .tc main_arg10) := W6_of_ne m ρ c main_arg10 (by decide)
      _ = W4 m ρ c (Proc.devRef .tc main_arg10) := by stretch_keeps hostOps1
      _ = W3 m ρ c (Proc.devRef .tc main_arg10) := W4_of_ne m ρ c main_arg10 (by decide)
      _ = m ((c : Thread nD τ).loc main_arg10) :=
        W3_of_kept m ρ c main_arg10 (by stretch_keeps hostOps0_2) (by stretch_keeps hostOps0_1) (by stretch_keeps hostOps0)
  rw [← keep]
  show StableHlo.after hostOps2_1 (W7 m ρ c) (Proc.devRef .tc main_v14) = asRow (W7 m ρ c (Proc.devRef .tc main_arg10))
  generalize W7 m ρ c = V7
  after_results
  rfl

theorem W8_arg2 (c : Dev nD) : W8 m ρ c (Proc.devRef .tc main_arg2) = m ((c : Thread nD τ).loc main_arg2) := by
  exact calc W8 m ρ c (Proc.devRef .tc main_arg2)
    _ = W7 m ρ c (Proc.devRef .tc main_arg2) := by stretch_keeps hostOps2_1
    _ = W6 m ρ c (Proc.devRef .tc main_arg2) := by stretch_keeps hostOps2
    _ = W5 m ρ c (Proc.devRef .tc main_arg2) := W6_of_ne m ρ c main_arg2 (by decide)
    _ = W4 m ρ c (Proc.devRef .tc main_arg2) := by stretch_keeps hostOps1
    _ = W3 m ρ c (Proc.devRef .tc main_arg2) :=
      (W4_arr m ρ c 1).trans (((dat0 (V3 m ρ) c).arrAt_in 1 rfl _).trans (A_eq0 (V3 m ρ) c 1))
    _ = m ((c : Thread nD τ).loc main_arg2) := W3_arg2 m ρ c

theorem W8_arg9 (c : Dev nD) : W8 m ρ c (Proc.devRef .tc main_arg9) = m ((c : Thread nD τ).loc main_arg9) := by
  exact calc W8 m ρ c (Proc.devRef .tc main_arg9)
    _ = W7 m ρ c (Proc.devRef .tc main_arg9) := by stretch_keeps hostOps2_1
    _ = W6 m ρ c (Proc.devRef .tc main_arg9) := by stretch_keeps hostOps2
    _ = W5 m ρ c (Proc.devRef .tc main_arg9) := W6_of_ne m ρ c main_arg9 (by decide)
    _ = W4 m ρ c (Proc.devRef .tc main_arg9) := by stretch_keeps hostOps1
    _ = W3 m ρ c (Proc.devRef .tc main_arg9) := W4_of_ne m ρ c main_arg9 (by decide)
    _ = m ((c : Thread nD τ).loc main_arg9) :=
      W3_of_kept m ρ c main_arg9 (by stretch_keeps hostOps0_2) (by stretch_keeps hostOps0_1) (by stretch_keeps hostOps0)

end Cert.KernelIdeal.HostA

end
-- ==== Proof.HostB.lean ====
/-
  What the two node launches and the normalisation launch find in their arrays. Before a node launch the host sums
  the edge messages the preceding launch left into their target nodes and lays the two bias vectors out as rows; the
  node features and the weights are arrays nothing has written since they were made. Before the normalisation the host
  takes each column's mean and variance of the second layer's output and lays them, and the scale and shift vectors,
  out as rows.
-/
import proofs.«416417_j3642132267186_1_alg».proof.Proof.Gen.KernelIdeal.Frame
import proofs.«416417_j3642132267186_1_alg».proof.Proof.HostFns
import Idealize.ShloMosaic.Lib.StableHlo.Run

set_option maxRecDepth 16384

noncomputable section

namespace Cert.KernelIdeal.HostB

open Cert.KernelIdeal Cert.KernelIdeal.Gen Cert.KernelIdeal.HostFns
open Idealize.ShloMosaic Idealize.ShloMosaic.TcCoe Idealize.SL.Sem

variable (m : (ℓ : Loc nD τ sig) → Buf (Elt Ideal) ℓ) (ρ : Dev nD → PrngReg)

/-- A buffer the stretch `h` does not write holds after it what it held before: rewrites the left side one
    boundary back. -/
macro "keep_through " h:ident : tactic => `(tactic| (
  refine (StableHlo.after_of_forall_not_mem $h _ (List.forall_iff_forall_mem.mp ?_)).trans ?_
  · simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- A buffer that is none of a launch's arrays holds after the launch what it held before. -/
macro "keep_past " h:ident : tactic => `(tactic| refine ($h _ _ _ _ (by decide)).trans ?_)

/-! ## Buffers nothing has written

An argument of the program is written by no host operation and is an output of no launch, so at every boundary it
still holds the launch memory's contents. The three lemma families below walk back from the first edge launch's exit,
the second edge launch's exit and the second node launch's exit. -/

theorem W4_arg0 (c : Dev nD) : W4 m ρ c (Proc.devRef .tc main_arg0) = m ((c : Thread nD τ).loc main_arg0) := by
  keep_past W4_of_ne; keep_through hostOps0_2; keep_through hostOps0_1; keep_through hostOps0; rfl

theorem W4_arg5 (c : Dev nD) : W4 m ρ c (Proc.devRef .tc main_arg5) = m ((c : Thread nD τ).loc main_arg5) := by
  keep_past W4_of_ne; keep_through hostOps0_2; keep_through hostOps0_1; keep_through hostOps0; rfl

theorem W4_arg6 (c : Dev nD) : W4 m ρ c (Proc.devRef .tc main_arg6) = m ((c : Thread nD τ).loc main_arg6) := by
  keep_past W4_of_ne; keep_through hostOps0_2; keep_through hostOps0_1; keep_through hostOps0; rfl

theorem W4_arg7 (c : Dev nD) : W4 m ρ c (Proc.devRef .tc main_arg7) = m ((c : Thread nD τ).loc main_arg7) := by
  keep_past W4_of_ne; keep_through hostOps0_2; keep_through hostOps0_1; keep_through hostOps0; rfl

theorem W4_arg8 (c : Dev nD) : W4 m ρ c (Proc.devRef .tc main_arg8) = m ((c : Thread nD τ).loc main_arg8) := by
  keep_past W4_of_ne; keep_through hostOps0_2; keep_through hostOps0_1; keep_through hostOps0; rfl

theorem W4_arg11 (c : Dev nD) : W4 m ρ c (Proc.devRef .tc main_arg11) = m ((c : Thread nD τ).loc main_arg11) := by
  keep_past W4_of_ne; keep_through hostOps0_2; keep_through hostOps0_1; keep_through hostOps0; rfl

theorem W4_arg12 (c : Dev nD) : W4 m ρ c (Proc.devRef .tc main_arg12) = m ((c : Thread nD τ).loc main_arg12) := by
  keep_past W4_of_ne; keep_through hostOps0_2; keep_through hostOps0_1; keep_through hostOps0; rfl

theorem W4_arg13 (c : Dev nD) : W4 m ρ c (Proc.devRef .tc main_arg13) = m ((c : Thread nD τ).loc main_arg13) := by
  keep_past W4_of_ne; keep_through hostOps0_2; keep_through hostOps0_1; keep_through hostOps0; rfl

theorem W4_arg14 (c : Dev nD) : W4 m ρ c (Proc.devRef .tc main_arg14) = m ((c : Thread nD τ).loc main_arg14) := by
  keep_past W4_of_ne; keep_through hostOps0_2; keep_through hostOps0_1; keep_through hostOps0; rfl

theorem W4_arg15 (c : Dev nD) : W4 m ρ c (Proc.devRef .tc main_arg15) = m ((c : Thread nD τ).loc main_arg15) := by
  keep_past W4_of_ne; keep_through hostOps0_2; keep_through hostOps0_1; keep_through hostOps0; rfl

theorem W4_arg16 (c : Dev nD) : W4 m ρ c (Proc.devRef .tc main_arg16) = m ((c : Thread nD τ).loc main_arg16) := by
  keep_past W4_of_ne; keep_through hostOps0_2; keep_through hostOps0_1; keep_through hostOps0; rfl

theorem W9_arg11 (c : Dev nD) : W9 m ρ c (Proc.devRef .tc main_arg11) = m ((c : Thread nD τ).loc main_arg11) := by
  keep_past W9_of_ne; keep_through hostOps2_1; keep_through hostOps2; keep_past W6_of_ne; keep_through hostOps1
  exact W4_arg11 m ρ c

theorem W9_arg12 (c : Dev nD) : W9 m ρ c (Proc.devRef .tc main_arg12) = m ((c : Thread nD τ).loc main_arg12) := by
  keep_past W9_of_ne; keep_through hostOps2_1; keep_through hostOps2; keep_past W6_of_ne; keep_through hostOps1
  exact W4_arg12 m ρ c

theorem W9_arg13 (c : Dev nD) : W9 m ρ c (Proc.devRef .tc main_arg13) = m ((c : Thread nD τ).loc main_arg13) := by
  keep_past W9_of_ne; keep_through hostOps2_1; keep_through hostOps2; keep_past W6_of_ne; keep_through hostOps1
  exact W4_arg13 m ρ c

theorem W9_arg14 (c : Dev nD) : W9 m ρ c (Proc.devRef .tc main_arg14) = m ((c : Thread nD τ).loc main_arg14) := by
  keep_past W9_of_ne; keep_through hostOps2_1; keep_through hostOps2; keep_past W6_of_ne; keep_through hostOps1
  exact W4_arg14 m ρ c

theorem W9_arg15 (c : Dev nD) : W9 m ρ c (Proc.devRef .tc main_arg15) = m ((c : Thread nD τ).loc main_arg15) := by
  keep_past W9_of_ne; keep_through hostOps2_1; keep_through hostOps2; keep_past W6_of_ne; keep_through hostOps1
  exact W4_arg15 m ρ c

theorem W9_arg16 (c : Dev nD) : W9 m ρ c (Proc.devRef .tc main_arg16) = m ((c : Thread nD τ).loc main_arg16) := by
  keep_past W9_of_ne; keep_through hostOps2_1; keep_through hostOps2; keep_past W6_of_ne; keep_through hostOps1
  exact W4_arg16 m ρ c

theorem W11_arg15 (c : Dev nD) : W11 m ρ c (Proc.devRef .tc main_arg15) = m ((c : Thread nD τ).loc main_arg15) := by
  keep_past W11_of_ne; keep_through hostOps3
  exact W9_arg15 m ρ c

theorem W11_arg16 (c : Dev nD) : W11 m ρ c (Proc.devRef .tc main_arg16) = m ((c : Thread nD τ).loc main_arg16) := by
  keep_past W11_of_ne; keep_through hostOps3
  exact W9_arg16 m ρ c

/-! ## The edges' target nodes

The second row of the edge list is cut out once, before the first launch, and nothing writes that buffer again: both
node launches' sums read the same target indices. -/

theorem W1_v3 (c : Dev nD) : (W1 m ρ c (Proc.devRef .tc main_v3) : IVec S600000 32) = dstOf (m ((c : Thread nD τ).loc main_arg1)) := by
  show StableHlo.after hostOps0 _ (Proc.devRef .tc main_v3) = _
  after_results
  rfl

theorem W4_v3 (c : Dev nD) : (W4 m ρ c (Proc.devRef .tc main_v3) : IVec S600000 32) = dstOf (m ((c : Thread nD τ).loc main_arg1)) := by
  refine Eq.trans ?_ (W1_v3 m ρ c)
  keep_past W4_of_ne; keep_through hostOps0_2; keep_through hostOps0_1; rfl

theorem W9_v3 (c : Dev nD) : (W9 m ρ c (Proc.devRef .tc main_v3) : IVec S600000 32) = dstOf (m ((c : Thread nD τ).loc main_arg1)) := by
  refine Eq.trans ?_ (W4_v3 m ρ c)
  keep_past W9_of_ne; keep_through hostOps2_1; keep_through hostOps2; keep_past W6_of_ne; keep_through hostOps1; rfl

/-! ## At the first node launch -/

theorem W5_v9 (c : Dev nD) : (W5 m ρ c (Proc.devRef .tc main_v9) : FVec Ideal S50000x128 .f32) = segSum (W4 m ρ c (Proc.devRef .tc main_v6) : FVec Ideal S600000x128 .f32) (m ((c : Thread nD τ).loc main_arg1)) := by
  show StableHlo.after hostOps1 _ (Proc.devRef .tc main_v9) = _
  after_results
  rw [W4_v3]
  rfl

theorem W5_v10 (c : Dev nD) : (W5 m ρ c (Proc.devRef .tc main_v10) : FVec Ideal S1x128 .f32) = asRow (m ((c : Thread nD τ).loc main_arg6)) := by
  show StableHlo.after hostOps1 _ (Proc.devRef .tc main_v10) = _
  after_results
  rw [W4_arg6]
  rfl

theorem W5_v11 (c : Dev nD) : (W5 m ρ c (Proc.devRef .tc main_v11) : FVec Ideal S1x128 .f32) = asRow (m ((c : Thread nD τ).loc main_arg8)) := by
  show StableHlo.after hostOps1 _ (Proc.devRef .tc main_v11) = _
  after_results
  rw [W4_arg8]
  rfl

theorem W5_arg0 (c : Dev nD) : W5 m ρ c (Proc.devRef .tc main_arg0) = m ((c : Thread nD τ).loc main_arg0) := by
  keep_through hostOps1
  exact W4_arg0 m ρ c

theorem W5_arg5 (c : Dev nD) : W5 m ρ c (Proc.devRef .tc main_arg5) = m ((c : Thread nD τ).loc main_arg5) := by
  keep_through hostOps1
  exact W4_arg5 m ρ c

theorem W5_arg7 (c : Dev nD) : W5 m ρ c (Proc.devRef .tc main_arg7) = m ((c : Thread nD τ).loc main_arg7) := by
  keep_through hostOps1
  exact W4_arg7 m ρ c

/-! ## At the second node launch -/

theorem W10_v18 (c : Dev nD) : (W10 m ρ c (Proc.devRef .tc main_v18) : FVec Ideal S50000x128 .f32) = segSum (W9 m ρ c (Proc.devRef .tc main_v15) : FVec Ideal S600000x128 .f32) (m ((c : Thread nD τ).loc main_arg1)) := by
  show StableHlo.after hostOps3 _ (Proc.devRef .tc main_v18) = _
  after_results
  rw [W9_v3]
  rfl

theorem W10_v19 (c : Dev nD) : (W10 m ρ c (Proc.devRef .tc main_v19) : FVec Ideal S1x128 .f32) = asRow (m ((c : Thread nD τ).loc main_arg12)) := by
  show StableHlo.after hostOps3 _ (Proc.devRef .tc main_v19) = _
  after_results
  rw [W9_arg12]
  rfl

theorem W10_v20 (c : Dev nD) : (W10 m ρ c (Proc.devRef .tc main_v20) : FVec Ideal S1x128 .f32) = asRow (m ((c : Thread nD τ).loc main_arg14)) := by
  show StableHlo.after hostOps3 _ (Proc.devRef .tc main_v20) = _
  after_results
  rw [W9_arg14]
  rfl

/-- The first layer's output is still what the first node launch left. -/
theorem W10_v12 (c : Dev nD) : W10 m ρ c (Proc.devRef .tc main_v12) = W6 m ρ c (Proc.devRef .tc main_v12) := by
  keep_through hostOps3; keep_past W9_of_ne; keep_through hostOps2_1; keep_through hostOps2; rfl

theorem W10_arg11 (c : Dev nD) : W10 m ρ c (Proc.devRef .tc main_arg11) = m ((c : Thread nD τ).loc main_arg11) := by
  keep_through hostOps3
  exact W9_arg11 m ρ c

theorem W10_arg13 (c : Dev nD) : W10 m ρ c (Proc.devRef .tc main_arg13) = m ((c : Thread nD τ).loc main_arg13) := by
  keep_through hostOps3
  exact W9_arg13 m ρ c

/-! ## At the normalisation launch -/

/-- The second layer's output is still what the second node launch left. -/
theorem W12_v21 (c : Dev nD) : W12 m ρ c (Proc.devRef .tc main_v21) = W11 m ρ c (Proc.devRef .tc main_v21) := by
  keep_through hostOps4; rfl

theorem W12_v32 (c : Dev nD) : (W12 m ρ c (Proc.devRef .tc main_v32) : FVec Ideal S1x128 .f32) = asRow (colMean (W11 m ρ c (Proc.devRef .tc main_v21) : FVec Ideal S50000x128 .f32)) := by
  show StableHlo.after hostOps4 _ (Proc.devRef .tc main_v32) = _
  after_results
  rfl

theorem W12_v33 (c : Dev nD) : (W12 m ρ c (Proc.devRef .tc main_v33) : FVec Ideal S1x128 .f32) = asRow (colVar (W11 m ρ c (Proc.devRef .tc main_v21) : FVec Ideal S50000x128 .f32)) := by
  show StableHlo.after hostOps4 _ (Proc.devRef .tc main_v33) = _
  after_results
  rfl

theorem W12_v34 (c : Dev nD) : (W12 m ρ c (Proc.devRef .tc main_v34) : FVec Ideal S1x128 .f32) = asRow (m ((c : Thread nD τ).loc main_arg15)) := by
  show StableHlo.after hostOps4 _ (Proc.devRef .tc main_v34) = _
  after_results
  rw [W11_arg15]
  rfl

theorem W12_v35 (c : Dev nD) : (W12 m ρ c (Proc.devRef .tc main_v35) : FVec Ideal S1x128 .f32) = asRow (m ((c : Thread nD τ).loc main_arg16)) := by
  show StableHlo.after hostOps4 _ (Proc.devRef .tc main_v35) = _
  after_results
  rw [W11_arg16]
  rfl

end Cert.KernelIdeal.HostB

end
-- ==== Proof.Model.lean ====
/-
  The encoder as ONE function of its seventeen argument arrays: the first layer's edge messages from the gathered
  node rows, their sum into the target nodes, the first node layer with its `relu`; the same again from the first
  layer's output, without the last `relu`; then the column normalisation with the second layer's own column mean and
  variance. Both programs are shown to end at this function of their arguments.
-/
import proofs.«416417_j3642132267186_1_alg».proof.Proof.HostFns
import proofs.«416417_j3642132267186_1_alg».proof.Proof.Spec
import Idealize.ShloMosaic.Lib.Pipeline.Value
import Idealize.ShloMosaic.Lib.ValueIdx

noncomputable section

namespace Cert.KernelIdeal.Model

open Cert.KernelIdeal Cert.KernelIdeal.Facts₀ Cert.KernelIdeal.Facts Cert.KernelIdeal.HostFns Cert.Gine
open Idealize.ShloMosaic Idealize.ShloMosaic.ValueIdx

/-- The argument arrays: node features, edge list, edge attributes, then the weights and biases of the two layers'
    edge and node maps, and the normalisation's scale and shift. -/
structure Args where
  a0 : FVec Ideal S50000x128 .f32
  a1 : IVec S2x600000 32
  a2 : FVec Ideal S600000x64 .f32
  a3 : FVec Ideal S64x128 .f32
  a4 : FVec Ideal S128 .f32
  a5 : FVec Ideal S128x128 .f32
  a6 : FVec Ideal S128 .f32
  a7 : FVec Ideal S128x128 .f32
  a8 : FVec Ideal S128 .f32
  a9 : FVec Ideal S64x128 .f32
  a10 : FVec Ideal S128 .f32
  a11 : FVec Ideal S128x128 .f32
  a12 : FVec Ideal S128 .f32
  a13 : FVec Ideal S128x128 .f32
  a14 : FVec Ideal S128 .f32
  a15 : FVec Ideal S128 .f32
  a16 : FVec Ideal S128 .f32

/-- The first layer's edge messages. -/
def msg1 (A : Args) : FVec Ideal S600000x128 .f32 := edgeMsg (E := 600000) (gatherRows A.a0 A.a1) A.a2 A.a3 (rowOf A.a4)
/-- The first layer's output. -/
def h1 (A : Args) : FVec Ideal S50000x128 .f32 :=
  nodeOutRelu (N := 50000) A.a0 (segSum (msg1 A) A.a1) A.a5 (rowOf A.a6) A.a7 (rowOf A.a8)
/-- The second layer's edge messages. -/
def msg2 (A : Args) : FVec Ideal S600000x128 .f32 := edgeMsg (E := 600000) (gatherRows (h1 A) A.a1) A.a2 A.a9 (rowOf A.a10)
/-- The second layer's output. -/
def h2 (A : Args) : FVec Ideal S50000x128 .f32 :=
  nodeOut (N := 50000) (h1 A) (segSum (msg2 A) A.a1) A.a11 (rowOf A.a12) A.a13 (rowOf A.a14)
/-- The encoder's output. -/
def out (A : Args) : FVec Ideal S50000x128 .f32 :=
  bnApply (N := 50000) (h2 A) (rowOf (colMean (h2 A))) (rowOf (colVar (h2 A))) (rowOf A.a15) (rowOf A.a16)

/-- A vector laid out as one row reads back as the vector. -/
theorem rowOf2_asRow (v : FVec Ideal S128 .f32) : rowOf2 (asRow v) = rowOf v := by
  funext q
  show shapeCast S1x128 v shapeCasts_S128_S1x128 (ix2 0 q) = v (ix1 q)
  exact shapeCast_apply v shapeCasts_S128_S1x128 (ix2 0 q) (ix1 q) (by
    simp only [Shape.rowMajor_val_two, Shape.rowMajor_val_one]
    show q.val = 0 * 128 + q.val
    omega)

end Cert.KernelIdeal.Model

end
-- ==== Proof.KValue.lean ====
/-
  The kernel program's result, followed from the launch to the return. At each launch the region's output array ends
  as the layer's function of the arrays the region found (the five region modules); what it found is what the host
  operations before it made of the earlier results and of the argument arrays (the two host modules). Composing the
  five steps gives the encoder's function of the argument arrays, wherever every edge's source index names a node.
-/
import proofs.«416417_j3642132267186_1_alg».proof.Proof.Region0
import proofs.«416417_j3642132267186_1_alg».proof.Proof.Region1
import proofs.«416417_j3642132267186_1_alg».proof.Proof.Region2
import proofs.«416417_j3642132267186_1_alg».proof.Proof.Region3
import proofs.«416417_j3642132267186_1_alg».proof.Proof.Region4
import proofs.«416417_j3642132267186_1_alg».proof.Proof.HostA
import proofs.«416417_j3642132267186_1_alg».proof.Proof.HostB
import proofs.«416417_j3642132267186_1_alg».proof.Proof.Model
import proofs.«416417_j3642132267186_1_alg».proof.Proof.KRun

set_option maxRecDepth 16384

noncomputable section

namespace Cert.KernelIdeal.KValue

open Cert.KernelIdeal Cert.KernelIdeal.Gen Cert.KernelIdeal.HostFns Cert.KernelIdeal.HostA Cert.KernelIdeal.HostB
open Cert.KernelIdeal.Model Cert.Gine
open Idealize.ShloMosaic Idealize.ShloMosaic.TcCoe Idealize.SL.Sem

/-! ## Equal operands, equal layers -/

theorem edgeMsg_congr {E : Nat} {xs xs' : Mat E 128} {ea ea' : Mat E 64} {We We' : Mat 64 128} {be be' : Fin 128 → EReal}
    (h1 : xs = xs') (h2 : ea = ea') (h3 : We = We') (h4 : be = be') : edgeMsg xs ea We be = edgeMsg xs' ea' We' be' := by
  subst h1 h2 h3 h4; rfl

theorem nodeOut_congr {N : Nat} {x x' a a' : Mat N 128} {Wa Wa' Wb Wb' : Mat 128 128} {ba ba' bb bb' : Fin 128 → EReal}
    (h1 : x = x') (h2 : a = a') (h3 : Wa = Wa') (h4 : ba = ba') (h5 : Wb = Wb') (h6 : bb = bb') :
    nodeOut x a Wa ba Wb bb = nodeOut x' a' Wa' ba' Wb' bb' := by
  subst h1 h2 h3 h4 h5 h6; rfl

theorem nodeOutRelu_congr {N : Nat} {x x' a a' : Mat N 128} {Wa Wa' Wb Wb' : Mat 128 128} {ba ba' bb bb' : Fin 128 → EReal}
    (h1 : x = x') (h2 : a = a') (h3 : Wa = Wa') (h4 : ba = ba') (h5 : Wb = Wb') (h6 : bb = bb') :
    nodeOutRelu x a Wa ba Wb bb = nodeOutRelu x' a' Wa' ba' Wb' bb' := by
  subst h1 h2 h3 h4 h5 h6; rfl

theorem bnApply_congr {N : Nat} {h h' : Mat N 128} {mean mean' var var' gamma gamma' beta beta' : Fin 128 → EReal}
    (h1 : h = h') (h2 : mean = mean') (h3 : var = var') (h4 : gamma = gamma') (h5 : beta = beta') :
    bnApply h mean var gamma beta = bnApply h' mean' var' gamma' beta' := by
  subst h1 h2 h3 h4 h5; rfl

variable (m : (ℓ : Loc nD τ sig) → Buf (Elt Ideal) ℓ) (ρ : Dev nD → PrngReg)

/-- Device `c`'s argument arrays. -/
def argsOf (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)

/-- A bias vector, laid out as a row by the host and read back as a row, is the vector. -/
theorem row_of {b : FVec Ideal S1x128 .f32} {v : FVec Ideal S128 .f32} (h : b = asRow v) : rowOf2 b = rowOf v :=
  (congrArg rowOf2 h).trans (rowOf2_asRow v)

/-! ## The five launches -/

/-- After the first edge-message launch: the first layer's edge messages. -/
theorem v6_eq (c : Dev nD) (hr : SrcInRange (m ((c : Thread nD τ).loc main_arg1))) :
    (W4 m ρ c (Proc.devRef .tc main_v6) : FVec Ideal S600000x128 .f32) = msg1 (argsOf m c) := by
  refine ((W4_arr m ρ c 4).trans (Region0.final0 (V3 m ρ) c)).trans ?_
  exact edgeMsg_congr (W3_v4 m ρ c hr) (W3_arg2 m ρ c) (W3_arg3 m ρ c) (row_of (W3_v5 m ρ c))

/-- After the first node launch: the first layer's output. -/
theorem v12_eq (c : Dev nD) (hr : SrcInRange (m ((c : Thread nD τ).loc main_arg1))) :
    (W6 m ρ c (Proc.devRef .tc main_v12) : FVec Ideal S50000x128 .f32) = h1 (argsOf m c) := by
  refine ((W6_arr m ρ c 6).trans (Region1.final1 (V5 m ρ) c)).trans ?_
  exact nodeOutRelu_congr (W5_arg0 m ρ c)
    ((W5_v9 m ρ c).trans (congrArg (fun x => segSum x (m ((c : Thread nD τ).loc main_arg1))) (v6_eq m ρ c hr)))
    (W5_arg5 m ρ c) (row_of (W5_v10 m ρ c)) (W5_arg7 m ρ c) (row_of (W5_v11 m ρ c))

/-- After the second edge-message launch: the second layer's edge messages. -/
theorem v15_eq (c : Dev nD) (hr : SrcInRange (m ((c : Thread nD τ).loc main_arg1))) :
    (W9 m ρ c (Proc.devRef .tc main_v15) : FVec Ideal S600000x128 .f32) = msg2 (argsOf m c) := by
  refine ((W9_arr m ρ c 4).trans (Region2.final2 (V8 m ρ) c)).trans ?_
  exact edgeMsg_congr
    ((W8_v13 m ρ c hr).trans (congrArg (fun x => gatherRows x (m ((c : Thread nD τ).loc main_arg1))) (v12_eq m ρ c hr)))
    (W8_arg2 m ρ c) (W8_arg9 m ρ c) (row_of (W8_v14 m ρ c))

/-- After the second node launch: the second layer's output. -/
theorem v21_eq (c : Dev nD) (hr : SrcInRange (m ((c : Thread nD τ).loc main_arg1))) :
    (W11 m ρ c (Proc.devRef .tc main_v21) : FVec Ideal S50000x128 .f32) = h2 (argsOf m c) := by
  refine ((W11_arr m ρ c 6).trans (Region3.final3 (V10 m ρ) c)).trans ?_
  exact nodeOut_congr ((W10_v12 m ρ c).trans (v12_eq m ρ c hr))
    ((W10_v18 m ρ c).trans (congrArg (fun x => segSum x (m ((c : Thread nD τ).loc main_arg1))) (v15_eq m ρ c hr)))
    (W10_arg11 m ρ c) (row_of (W10_v19 m ρ c)) (W10_arg13 m ρ c) (row_of (W10_v20 m ρ c))

/-- After the normalisation launch: the encoder's output. -/
theorem v36_eq (c : Dev nD) (hr : SrcInRange (m ((c : Thread nD τ).loc main_arg1))) :
    (W13 m ρ c (Proc.devRef .tc main_v36) : FVec Ideal S50000x128 .f32) = out (argsOf m c) := by
  refine ((W13_arr m ρ c 5).trans (Region4.final4 (V12 m ρ) c)).trans ?_
  exact bnApply_congr ((W12_v21 m ρ c).trans (v21_eq m ρ c hr))
    ((row_of (W12_v32 m ρ c)).trans (congrArg (fun x => rowOf (colMean x)) (v21_eq m ρ c hr)))
    ((row_of (W12_v33 m ρ c)).trans (congrArg (fun x => rowOf (colVar x)) (v21_eq m ρ c hr)))
    (row_of (W12_v34 m ρ c)) (row_of (W12_v35 m ρ c))

/-! ## The run -/

/-- Under the statement's domain every weakly fair execution of the kernel program terminates, nothing faulting, with
    its result at the encoder's function of the argument arrays and the argument arrays as launched. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v36) = out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (v36_eq m ρ c (srcInRange_of_pre m hpre c)), (h c).2⟩)
    (Cert.KernelIdeal.RunOut.run_out m ρ)

end Cert.KernelIdeal.KValue

end
-- ==== Proof.RefStages.lean ====
/-
  The reference program, stage by stage, as the functions of `Spec`.

  The generated module `Read` names the value each operation of the reference writes (`val_main_vN`) and reads it at
  an index from its operands. Here five of those values are identified with the matrices of `Spec`:

  * `val_main_v16`, `val_main_v43`: the edge messages of the two layers, `edgeMsg` of the gathered source rows, the
    edge attributes, the edge weight and bias;
  * `val_main_v30`, `val_main_v56`: the node layers, `nodeOutRelu` / `nodeOut` of the layer's input features and
    the summed messages;
  * `val_main_v81`: the normalisation, `bnApply` of the second layer's output with the column statistics.

  The gathers (`val_main_v10`, `val_main_v37`), the sums into the target nodes (`val_main_v19`, `val_main_v46`)
  and the column statistics (`val_main_v59`, `val_main_v66`) stay as the program names them.

  Every proof is the same three steps at an entry `(p, q)`: read the stage down to those values through the
  generated `_apply` lemmas; identify each index the layout operations compute with the pair of coordinates it is
  (a bias vector broadcast to a row and then to all rows is read at `q`; the factors of a product's `k`-th term are
  read at `(p, k)` and `(k, q)`); read the operations at the extended reals, where `relu` is the maximum with the
  zero the word `0x00000000` denotes.
-/
import proofs.«416417_j3642132267186_1_alg».proof.Proof.Gen.ReferenceIdeal.Read
import proofs.«416417_j3642132267186_1_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read Cert.Gine Idealize.ShloMosaic Idealize.ShloMosaic.ValueIdx
open scoped BigOperators

/-- The first layer's edge messages: entry `(p, q)` is `max (xs p q + ∑ k, ea p k · We1 k q + be1 q) 0`, `xs` the
    gathered source rows. -/
theorem stage_v16
    (x0 : (⟨S50000x128, .f32⟩ : BufTy).Contents (Elt Ideal)) (x1 : (⟨S2x600000, .i32⟩ : BufTy).Contents (Elt Ideal))
    (x2 : (⟨S600000x64, .f32⟩ : BufTy).Contents (Elt Ideal)) (x3 : (⟨S64x128, .f32⟩ : BufTy).Contents (Elt Ideal))
    (x4 : (⟨S128, .f32⟩ : BufTy).Contents (Elt Ideal)) :
    val_main_v16 (F := Ideal) x0 x1 x2 x3 x4
      = edgeMsg (E := 600000) (val_main_v10 (F := Ideal) x0 x1) x2 x3 (rowOf x4) := by
  funext i
  obtain ⟨p, q, rfl⟩ : ∃ (p : Fin 600000) (q : Fin 128), i = ix2 p q := ⟨i 0, i 1, eq_ix2 i⟩
  generalize hg : val_main_v10 (F := Ideal) x0 x1 = g
  rw [val_main_v16_apply, val_main_v15_apply, val_main_v12_apply, hg, val_main_v11_apply,
    val_main_v14_apply, val_main_v13_apply, val_main_call0_v0_apply, val_main_call0_cst_apply]
  have el : ∀ k : Fin 64, lidx_main_v11 (ix2 p q) k = ix2 p k := fun k =>
    funext fun a => Fin.ext (by match a with | ⟨0, _⟩ => rfl | ⟨1, _⟩ => rfl)
  have er : ∀ k : Fin 64, ridx_main_v11 (ix2 p q) k = ix2 k q := fun k =>
    funext fun a => Fin.ext (by match a with | ⟨0, _⟩ => rfl | ⟨1, _⟩ => rfl)
  have eb : idx_main_v13 (idx_main_v14 (ix2 p q)) = ix1 q :=
    funext fun a => Fin.ext (by match a with | ⟨0, _⟩ => rfl)
  rw [eb, Finset.sum_congr rfl (fun k _ => by rw [el k, er k]), Ideal.ofBits_def, Ideal.ofBits_zero_f32,
    Ideal.maximumf_def, Ideal.addf_def, Ideal.addf_def]
  rfl

/-- The first node layer's hidden activation at an entry: the product's left factor at `(p, k)` is the sum of the
    node features and the summed messages there. -/
theorem hidden_v25
    (x0 : (⟨S50000x128, .f32⟩ : BufTy).Contents (Elt Ideal)) (x1 : (⟨S2x600000, .i32⟩ : BufTy).Contents (Elt Ideal))
    (x2 : (⟨S600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal))
    (p : Fin 50000) (q : Fin 128) :
    val_main_v25 (F := Ideal) x0 x1 x2 x3 x4 x5 x6 (ix2 p q)
      = nodeHiddenAt (N := 50000) x0 (val_main_v19 (F := Ideal) x0 x1 x2 x3 x4)
          x5 (rowOf x6) p q := by
  generalize hg : val_main_v19 (F := Ideal) x0 x1 x2 x3 x4 = g
  rw [val_main_v25_apply, val_main_v24_apply, val_main_v21_apply, val_main_v23_apply, val_main_v22_apply,
    val_main_call1_v0_apply, val_main_call1_cst_apply]
  have el : ∀ k : Fin 128, lidx_main_v21 (ix2 p q) k = ix2 p k := fun k =>
    funext fun a => Fin.ext (by match a with | ⟨0, _⟩ => rfl | ⟨1, _⟩ => rfl)
  have er : ∀ k : Fin 128, ridx_main_v21 (ix2 p q) k = ix2 k q := fun k =>
    funext fun a => Fin.ext (by match a with | ⟨0, _⟩ => rfl | ⟨1, _⟩ => rfl)
  have eb : idx_main_v22 (idx_main_v23 (ix2 p q)) = ix1 q :=
    funext fun a => Fin.ext (by match a with | ⟨0, _⟩ => rfl)
  rw [eb, Finset.sum_congr rfl (fun k _ => by rw [el k, er k, val_main_v20_apply, hg, Ideal.addf_def]),
    Ideal.ofBits_def, Ideal.ofBits_zero_f32, Ideal.maximumf_def, Ideal.addf_def]
  rfl

/-- The first node layer with the `relu` that follows it. -/
theorem stage_v30
    (x0 : (⟨S50000x128, .f32⟩ : BufTy).Contents (Elt Ideal)) (x1 : (⟨S2x600000, .i32⟩ : BufTy).Contents (Elt Ideal))
    (x2 : (⟨S600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v30 (F := Ideal) x0 x1 x2 x3 x4 x5 x6 x7 x8
      = nodeOutRelu (N := 50000) x0 (val_main_v19 (F := Ideal) x0 x1 x2 x3 x4)
          x5 (rowOf x6) x7 (rowOf x8) := by
  funext i
  obtain ⟨p, q, rfl⟩ : ∃ (p : Fin 50000) (q : Fin 128), i = ix2 p q := ⟨i 0, i 1, eq_ix2 i⟩
  rw [val_main_v30_apply, val_main_v29_apply, val_main_v26_apply, val_main_v28_apply, val_main_v27_apply,
    val_main_call2_v0_apply, val_main_call2_cst_apply]
  have el : ∀ k : Fin 128, lidx_main_v26 (ix2 p q) k = ix2 p k := fun k =>
    funext fun a => Fin.ext (by match a with | ⟨0, _⟩ => rfl | ⟨1, _⟩ => rfl)
  have er : ∀ k : Fin 128, ridx_main_v26 (ix2 p q) k = ix2 k q := fun k =>
    funext fun a => Fin.ext (by match a with | ⟨0, _⟩ => rfl | ⟨1, _⟩ => rfl)
  have eb : idx_main_v27 (idx_main_v28 (ix2 p q)) = ix1 q :=
    funext fun a => Fin.ext (by match a with | ⟨0, _⟩ => rfl)
  rw [eb, Finset.sum_congr rfl (fun k _ => by rw [el k, er k, hidden_v25]),
    Ideal.ofBits_def, Ideal.ofBits_zero_f32, Ideal.maximumf_def, Ideal.addf_def]
  rfl

/-- The second layer's edge messages, over the rows gathered from the first layer's output. -/
theorem stage_v43
    (x0 : (⟨S50000x128, .f32⟩ : BufTy).Contents (Elt Ideal)) (x1 : (⟨S2x600000, .i32⟩ : BufTy).Contents (Elt Ideal))
    (x2 : (⟨S600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S64x128, .f32⟩ : BufTy).Contents (Elt Ideal))
    (x10 : (⟨S128, .f32⟩ : BufTy).Contents (Elt Ideal)) :
    val_main_v43 (F := Ideal) x0 x1 x2 x3 x4 x5 x6 x7 x8 x9 x10
      = edgeMsg (E := 600000) (val_main_v37 (F := Ideal) x0 x1 x2 x3 x4 x5 x6 x7 x8) x2 x9 (rowOf x10) := by
  funext i
  obtain ⟨p, q, rfl⟩ : ∃ (p : Fin 600000) (q : Fin 128), i = ix2 p q := ⟨i 0, i 1, eq_ix2 i⟩
  generalize hg : val_main_v37 (F := Ideal) x0 x1 x2 x3 x4 x5 x6 x7 x8 = g
  rw [val_main_v43_apply, val_main_v42_apply, val_main_v39_apply, hg, val_main_v38_apply,
    val_main_v41_apply, val_main_v40_apply, val_main_call3_v0_apply, val_main_call3_cst_apply]
  have el : ∀ k : Fin 64, lidx_main_v38 (ix2 p q) k = ix2 p k := fun k =>
    funext fun a => Fin.ext (by match a with | ⟨0, _⟩ => rfl | ⟨1, _⟩ => rfl)
  have er : ∀ k : Fin 64, ridx_main_v38 (ix2 p q) k = ix2 k q := fun k =>
    funext fun a => Fin.ext (by match a with | ⟨0, _⟩ => rfl | ⟨1, _⟩ => rfl)
  have eb : idx_main_v40 (idx_main_v41 (ix2 p q)) = ix1 q :=
    funext fun a => Fin.ext (by match a with | ⟨0, _⟩ => rfl)
  rw [eb, Finset.sum_congr rfl (fun k _ => by rw [el k, er k]), Ideal.ofBits_def, Ideal.ofBits_zero_f32,
    Ideal.maximumf_def, Ideal.addf_def, Ideal.addf_def]
  rfl

/-- The second node layer's hidden activation at an entry; its input features are the first layer's output. -/
theorem hidden_v52
    (x0 : (⟨S50000x128, .f32⟩ : BufTy).Contents (Elt Ideal)) (x1 : (⟨S2x600000, .i32⟩ : BufTy).Contents (Elt Ideal))
    (x2 : (⟨S600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S64x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal))
    (p : Fin 50000) (q : Fin 128) :
    val_main_v52 (F := Ideal) x0 x1 x2 x3 x4 x5 x6 x7 x8 x9 x10 x11 x12 (ix2 p q)
      = nodeHiddenAt (N := 50000) (val_main_v30 (F := Ideal) x0 x1 x2 x3 x4 x5 x6 x7 x8)
          (val_main_v46 (F := Ideal) x0 x1 x2 x3 x4 x5 x6 x7 x8 x9 x10)
          x11 (rowOf x12) p q := by
  generalize hf : (val_main_v30 (F := Ideal) x0 x1 x2 x3 x4 x5 x6 x7 x8) = f
  generalize hg : val_main_v46 (F := Ideal) x0 x1 x2 x3 x4 x5 x6 x7 x8 x9 x10 = g
  rw [val_main_v52_apply, val_main_v51_apply, val_main_v48_apply, val_main_v50_apply, val_main_v49_apply,
    val_main_call4_v0_apply, val_main_call4_cst_apply]
  have el : ∀ k : Fin 128, lidx_main_v48 (ix2 p q) k = ix2 p k := fun k =>
    funext fun a => Fin.ext (by match a with | ⟨0, _⟩ => rfl | ⟨1, _⟩ => rfl)
  have er : ∀ k : Fin 128, ridx_main_v48 (ix2 p q) k = ix2 k q := fun k =>
    funext fun a => Fin.ext (by match a with | ⟨0, _⟩ => rfl | ⟨1, _⟩ => rfl)
  have eb : idx_main_v49 (idx_main_v50 (ix2 p q)) = ix1 q :=
    funext fun a => Fin.ext (by match a with | ⟨0, _⟩ => rfl)
  rw [eb, Finset.sum_congr rfl (fun k _ => by
      rw [el k, er k, val_main_v47_apply, hf, hg, Ideal.addf_def]),
    Ideal.ofBits_def, Ideal.ofBits_zero_f32, Ideal.maximumf_def, Ideal.addf_def]
  rfl

/-- The second node layer (no `relu` after it). -/
theorem stage_v56
    (x0 : (⟨S50000x128, .f32⟩ : BufTy).Contents (Elt Ideal)) (x1 : (⟨S2x600000, .i32⟩ : BufTy).Contents (Elt Ideal))
    (x2 : (⟨S600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S64x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S128x128, .f32⟩ : BufTy).Contents (Elt Ideal))
    (x14 : (⟨S128, .f32⟩ : BufTy).Contents (Elt Ideal)) :
    val_main_v56 (F := Ideal) x0 x1 x2 x3 x4 x5 x6 x7 x8 x9 x10 x11 x12 x13 x14
      = nodeOut (N := 50000) (val_main_v30 (F := Ideal) x0 x1 x2 x3 x4 x5 x6 x7 x8)
          (val_main_v46 (F := Ideal) x0 x1 x2 x3 x4 x5 x6 x7 x8 x9 x10)
          x11 (rowOf x12) x13 (rowOf x14) := by
  funext i
  obtain ⟨p, q, rfl⟩ : ∃ (p : Fin 50000) (q : Fin 128), i = ix2 p q := ⟨i 0, i 1, eq_ix2 i⟩
  rw [val_main_v56_apply, val_main_v53_apply, val_main_v55_apply, val_main_v54_apply]
  have el : ∀ k : Fin 128, lidx_main_v53 (ix2 p q) k = ix2 p k := fun k =>
    funext fun a => Fin.ext (by match a with | ⟨0, _⟩ => rfl | ⟨1, _⟩ => rfl)
  have er : ∀ k : Fin 128, ridx_main_v53 (ix2 p q) k = ix2 k q := fun k =>
    funext fun a => Fin.ext (by match a with | ⟨0, _⟩ => rfl | ⟨1, _⟩ => rfl)
  have eb : idx_main_v54 (idx_main_v55 (ix2 p q)) = ix1 q :=
    funext fun a => Fin.ext (by match a with | ⟨0, _⟩ => rfl)
  rw [eb, Finset.sum_congr rfl (fun k _ => by rw [el k, er k, hidden_v52]), Ideal.addf_def]
  rfl

/-- The normalisation stage is `bnApply` of the second layer's output with the column means and variances the
    program computed, the scale and the shift: the program multiplies the scale by the centred entry first, then
    by the reciprocal square root of the variance plus the constant, and adds the shift, as `bnApplyAt` does. -/
theorem stage_v81
    (x0 : (⟨S50000x128, .f32⟩ : BufTy).Contents (Elt Ideal)) (x1 : (⟨S2x600000, .i32⟩ : BufTy).Contents (Elt Ideal))
    (x2 : (⟨S600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S64x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S128x128, .f32⟩ : BufTy).Contents (Elt Ideal))
    (x14 : (⟨S128, .f32⟩ : BufTy).Contents (Elt Ideal)) (x15 : (⟨S128, .f32⟩ : BufTy).Contents (Elt Ideal))
    (x16 : (⟨S128, .f32⟩ : BufTy).Contents (Elt Ideal)) :
    val_main_v81 (F := Ideal) x0 x1 x2 x3 x4 x5 x6 x7 x8 x9 x10 x11 x12 x13 x14 x15 x16
      = bnApply (N := 50000) (val_main_v56 (F := Ideal) x0 x1 x2 x3 x4 x5 x6 x7 x8 x9 x10 x11 x12 x13 x14)
          (rowOf (val_main_v59 (F := Ideal) x0 x1 x2 x3 x4 x5 x6 x7 x8 x9 x10 x11 x12 x13 x14))
          (rowOf (val_main_v66 (F := Ideal) x0 x1 x2 x3 x4 x5 x6 x7 x8 x9 x10 x11 x12 x13 x14))
          (rowOf x15) (rowOf x16) := by
  funext i
  obtain ⟨p, q, rfl⟩ : ∃ (p : Fin 50000) (q : Fin 128), i = ix2 p q := ⟨i 0, i 1, eq_ix2 i⟩
  generalize hh : val_main_v56 (F := Ideal) x0 x1 x2 x3 x4 x5 x6 x7 x8 x9 x10 x11 x12 x13 x14 = h
  generalize hm : val_main_v59 (F := Ideal) x0 x1 x2 x3 x4 x5 x6 x7 x8 x9 x10 x11 x12 x13 x14 = m
  generalize hv : val_main_v66 (F := Ideal) x0 x1 x2 x3 x4 x5 x6 x7 x8 x9 x10 x11 x12 x13 x14 = v
  rw [val_main_v81_apply, val_main_v78_apply, val_main_v72_apply, val_main_v71_apply, val_main_v70_apply,
    val_main_v69_apply, hh, val_main_v68_apply, val_main_v67_apply, hm, val_main_v77_apply, val_main_v76_apply,
    val_main_v75_apply, val_main_v74_apply, hv, val_main_v73_apply, val_main_cst_8_apply, val_main_v80_apply,
    val_main_v79_apply]
  have eg : idx_main_v70 (idx_main_v71 (ix2 p q)) = ix1 q :=
    funext fun a => Fin.ext (by match a with | ⟨0, _⟩ => rfl)
  have em : idx_main_v67 (idx_main_v68 (ix2 p q)) = ix1 q :=
    funext fun a => Fin.ext (by match a with | ⟨0, _⟩ => rfl)
  have ev : idx_main_v76 (idx_main_v77 (ix2 p q)) = ix1 q :=
    funext fun a => Fin.ext (by match a with | ⟨0, _⟩ => rfl)
  have eb : idx_main_v79 (idx_main_v80 (ix2 p q)) = ix1 q :=
    funext fun a => Fin.ext (by match a with | ⟨0, _⟩ => rfl)
  rw [eg, em, ev, eb, Ideal.hostUnary_rsqrt_def, Ideal.ofBits_def, Ideal.addf_def, Ideal.addf_def, Ideal.mulf_def,
    Ideal.mulf_def, Ideal.subf_def]
  rfl

end Cert.ReferenceIdeal.Stages

end
-- ==== Proof.RefValue.lean ====
/-
  The reference program's result as the encoder's function of its argument arrays. Its host operations are read stage
  by stage: the five layer stages are the layer functions of the earlier stages (the stage module), and the stages
  between them — the wrapped row gather, the sum into target nodes, the column mean and variance — are the very
  operations the kernel program's host side applies, so they are the same named functions of equal operands.
-/
import proofs.«416417_j3642132267186_1_alg».proof.Proof.RefStages
import proofs.«416417_j3642132267186_1_alg».proof.Proof.Model

set_option maxRecDepth 16384

noncomputable section

namespace Cert.ReferenceIdeal.RefValue

open Cert.ReferenceIdeal Cert.ReferenceIdeal.Gen Cert.ReferenceIdeal.Read Cert.ReferenceIdeal.Stages Cert.Gine
open Cert.KernelIdeal.Model (Args msg1 h1 msg2 h2 out)
open Cert.KernelIdeal.HostFns (srcOf dstOf takeIdx gatherRows segSum colMean colVar)
open Idealize.ShloMosaic Idealize.ShloMosaic.TcCoe Idealize.SL.Sem

/-! ## The shared host operations -/

/-- The reference's first gather index is the wrapped source index. -/
theorem idx1_eq (a1 : IVec S2x600000 32) : val_main_v9 (F := Ideal) a1 = takeIdx a1 := by
  unfold val_main_v9 val_main_v8 val_main_v7 val_main_v5 val_main_v6 val_main_v4 val_main_c_0 val_main_c val_main_v1 val_main_v0
    takeIdx srcOf
  rfl

/-- The reference's second gather index is the same wrapped source index. -/
theorem idx2_eq (a1 : IVec S2x600000 32) : val_main_v36 (F := Ideal) a1 = takeIdx a1 := by
  unfold val_main_v36 val_main_v35 val_main_v34 val_main_v32 val_main_v33 val_main_v31 val_main_c_2 val_main_c_1 val_main_v1 val_main_v0
    takeIdx srcOf
  rfl

variable (A : Args)

theorem r10 : val_main_v10 (F := Ideal) A.a0 A.a1 = gatherRows A.a0 A.a1 := by
  unfold val_main_v10 gatherRows
  rw [idx1_eq]
  rfl

theorem r16 : val_main_v16 (F := Ideal) A.a0 A.a1 A.a2 A.a3 A.a4 = msg1 A := by
  rw [stage_v16, r10]
  rfl

theorem r19 : val_main_v19 (F := Ideal) A.a0 A.a1 A.a2 A.a3 A.a4 = segSum (msg1 A) A.a1 := by
  unfold val_main_v19
  rw [r16]
  unfold segSum dstOf val_main_v17 val_main_v18 val_main_cst val_main_v3 val_main_v2
  rfl

theorem r30 : val_main_v30 (F := Ideal) A.a0 A.a1 A.a2 A.a3 A.a4 A.a5 A.a6 A.a7 A.a8 = h1 A := by
  rw [stage_v30, r19]
  rfl

theorem r37 : val_main_v37 (F := Ideal) A.a0 A.a1 A.a2 A.a3 A.a4 A.a5 A.a6 A.a7 A.a8 = gatherRows (h1 A) A.a1 := by
  unfold val_main_v37 gatherRows
  rw [r30, idx2_eq]
  rfl

theorem r43 : val_main_v43 (F := Ideal) A.a0 A.a1 A.a2 A.a3 A.a4 A.a5 A.a6 A.a7 A.a8 A.a9 A.a10 = msg2 A := by
  rw [stage_v43, r37]
  rfl

theorem r46 : val_main_v46 (F := Ideal) A.a0 A.a1 A.a2 A.a3 A.a4 A.a5 A.a6 A.a7 A.a8 A.a9 A.a10 = segSum (msg2 A) A.a1 := by
  unfold val_main_v46
  rw [r43]
  unfold segSum dstOf val_main_v44 val_main_v45 val_main_cst_3 val_main_v3 val_main_v2
  rfl

theorem r56 : val_main_v56 (F := Ideal) A.a0 A.a1 A.a2 A.a3 A.a4 A.a5 A.a6 A.a7 A.a8 A.a9 A.a10 A.a11 A.a12 A.a13 A.a14 = h2 A := by
  rw [stage_v56, r30, r46]
  rfl

theorem r59 : val_main_v59 (F := Ideal) A.a0 A.a1 A.a2 A.a3 A.a4 A.a5 A.a6 A.a7 A.a8 A.a9 A.a10 A.a11 A.a12 A.a13 A.a14 = colMean (h2 A) := by
  unfold val_main_v59 val_main_v57 val_main_v58 val_main_cst_4 val_main_cst_5
  rw [r56]
  unfold colMean
  rfl

theorem r66 : val_main_v66 (F := Ideal) A.a0 A.a1 A.a2 A.a3 A.a4 A.a5 A.a6 A.a7 A.a8 A.a9 A.a10 A.a11 A.a12 A.a13 A.a14 = colVar (h2 A) := by
  unfold val_main_v66 val_main_v64 val_main_v65 val_main_v63 val_main_v62 val_main_v61 val_main_v60 val_main_cst_6 val_main_cst_7
  rw [r59, r56]
  unfold colVar
  rfl

theorem r81 : val_main_v81 (F := Ideal) A.a0 A.a1 A.a2 A.a3 A.a4 A.a5 A.a6 A.a7 A.a8 A.a9 A.a10 A.a11 A.a12 A.a13 A.a14 A.a15 A.a16 = out A := by
  rw [stage_v81, r56, r59, r66]
  rfl

/-! ## The run -/

variable (m : (ℓ : Loc nD τ sig) → Buf (Elt Ideal) ℓ) (ρ : Dev nD → PrngReg)

/-- Device `c`'s argument arrays. -/
def argsOf (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)

/-- The reference's result is the encoder's function of its argument arrays. -/
theorem res_eq (c : Dev nD) : Cert.ReferenceIdeal.Value.res_main_v81 m c = out (argsOf m c) :=
  (val_main_v81_eq m c).trans (r81 (argsOf m c))

/-- Every weakly fair execution of the reference program terminates, nothing faulting, with its result at the
    encoder's function of the argument arrays and the argument arrays as launched. -/
theorem run : θ_run defs (onTc (τ := τ) (main (F := Ideal))) ⟨m, fun _ => 0, ρ⟩ (fun r => ∀ c : Dev nD,
      r.2.mem ((c.tc : Thread nD τ).loc main_v81) = out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (res_eq m c), (h c).2⟩)
    (Cert.ReferenceIdeal.Value.run (F := Ideal) m ρ)

end Cert.ReferenceIdeal.RefValue

end
-- ==== Proof.lean ====
/-
  A two-layer graph convolution with batch normalisation, tiled over Pallas launches, against its jnp reference, over
  the extended reals.

  Both programs compute, for every edge, `relu (x[src] + edge_attr · We + be)`, sum these messages into their target
  nodes, and apply `relu ((x + aggr) · Wa + ba) · Wb + bb` to every node (with one more `relu` after the first layer);
  then each column of the second layer's output is normalised with its own mean and biased variance over the nodes,
  `gamma · (h - mean) · rsqrt (var + eps) + beta`. The kernel program does the edge messages, the node layers and the
  normalisation in five launches over blocks of rows; a block of rows of each of these results depends on the same
  rows of its row-indexed operands only, so the blocks written back tile the whole result, and on the extended reals
  the launches' reduced-precision products are the exact sums the reference takes. The gather, the sum into target
  nodes and the column statistics are the same host operations in both programs.

  The one difference is at a source index outside `0 … 49999` (after numpy's wrap of a negative one): `jnp.take`
  returns a fill value there, `x[src]` clamps. The statement's domain therefore includes that every source index
  names a node; on it the two gathers agree, and both programs end at the same function of the argument arrays.

  The frames of the two kernel programs are the generated frame certificates; the reference's frame and value are its
  generated run, read stage by stage; no operation was rewritten for the idealization, so nothing is owed for it.
-/
import proofs.«416417_j3642132267186_1_alg».proof.Defs
import proofs.«416417_j3642132267186_1_alg».proof.Proof.Gen.Kernel
import proofs.«416417_j3642132267186_1_alg».proof.Proof.Gen.Kernel.Skeleton
import proofs.«416417_j3642132267186_1_alg».proof.Proof.Gen.Kernel.Launch
import proofs.«416417_j3642132267186_1_alg».proof.Proof.Gen.Kernel.Points
import proofs.«416417_j3642132267186_1_alg».proof.Proof.Gen.Kernel.Frame
import proofs.«416417_j3642132267186_1_alg».proof.Proof.Gen.KernelIdeal
import proofs.«416417_j3642132267186_1_alg».proof.Proof.Gen.KernelIdeal.Skeleton
import proofs.«416417_j3642132267186_1_alg».proof.Proof.Gen.KernelIdeal.Launch
import proofs.«416417_j3642132267186_1_alg».proof.Proof.Gen.KernelIdeal.Points
import proofs.«416417_j3642132267186_1_alg».proof.Proof.Gen.KernelIdeal.Frame
import proofs.«416417_j3642132267186_1_alg».proof.Proof.Gen.ReferenceIdeal
import proofs.«416417_j3642132267186_1_alg».proof.Proof.Gen.Pre_finite_inputs
import proofs.«416417_j3642132267186_1_alg».proof.Proof.Gen.ReferenceIdeal.Run
import proofs.«416417_j3642132267186_1_alg».proof.Proof.Gen.ReferenceIdeal.Read
import proofs.«416417_j3642132267186_1_alg».proof.Proof.KValue
import proofs.«416417_j3642132267186_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the encoder's function of the argument arrays. -/
theorem algebraic : Cert.algebraic_KernelIdeal_ReferenceIdeal := by
  intro m ρ m' ρ' hpre hagree
  refine ⟨fun c => Cert.KernelIdeal.Model.out (Cert.KernelIdeal.KValue.argsOf m c), Cert.KernelIdeal.KValue.run m ρ hpre, ?_⟩
  refine (θ_run Cert.ReferenceIdeal.defs _ _).mono (fun r h c => ⟨(h c).1.trans ?_, (h c).2⟩)
    (Cert.ReferenceIdeal.RefValue.run m' ρ')
  obtain ⟨h0, h1, h2, h3, h4, h5, h6, h7, h8, h9, h10, h11, h12, h13, h14, h15, h16⟩ := hagree c
  unfold Cert.ReferenceIdeal.RefValue.argsOf Cert.KernelIdeal.KValue.argsOf
  rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
